-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192 : Shape := ⟨2, ![1, 8192]⟩
abbrev S8192x8192 : Shape := ⟨2, ![8192, 8192]⟩
abbrev S_ : Shape := ⟨0, ![]⟩

class Facts : Prop where
  bcast_S_S1x8192 : S_.BroadcastsInDim S1x8192 (![] : Fin 0 → Fin S1x8192.rank)
  reducesTo_S1x8192_S_d0_1 : S1x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S1x8192 .f32) (main_arg5 : FVec F S8192x8192 .f32) (main_arg6 : FVec F S8192x8192 .f32) (main_v13 : IVec S_ 1) (main_v16 : IVec S1x8192 1) : IVec S_ 1 :=
  let main_c_5 : IVec S_ 1 := constantI S_ 1 1#1
  let main_v17 : IVec S_ 1 := (fun x v => Host.reduce IntOp.andi x v reducesTo_S1x8192_S_d0_1 h_S_) main_v16 main_c_5
  let main_v18 : IVec S_ 1 := andi main_v13 main_v17
  let main_v19 : FVec F S1x8192 .f32 := Host.absf main_arg4
  let main_cst_6 : FVec F S_ .f32 := constant S_ .f32 0x7F800000#32
  let main_v20 : FVec F S1x8192 .f32 := broadcastInDim S1x8192 ![] bcast_S_S1x8192 main_cst_6
  let main_v21 : IVec S1x8192 1 := cmpf .olt main_v19 main_v20
  let main_c_7 : IVec S_ 1 := constantI S_ 1 1#1
  let main_v22 : IVec S_ 1 := (fun x v => Host.reduce IntOp.andi x v reducesTo_S1x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  main_v33

def fn {F : FTy → Type} [FloatOps F] (main_arg0 : FVec F S1x8192 .f32) (main_arg1 : FVec F S1x8192 .f32) (main_arg2 : FVec F S1x8192 .f32) (main_arg3 : FVec F S1x8192 .f32) (main_arg4 : FVec F S1x8192 .f32) (main_arg5 : FVec F S8192x8192 .f32) (main_arg6 : FVec F S8192x8192 .f32) : IVec S_ 1 :=
  let main_v0 : FVec F S1x8192 .f32 := Host.absf main_arg0
  let main_cst : FVec F S_ .f32 := constant S_ .f32 0x7F800000#32
  let main_v1 : FVec F S1x8192 .f32 := broadcastInDim S1x8192 ![] bcast_S_S1x8192 main_cst
  let main_v2 : IVec S1x8192 1 := cmpf .olt main_v0 main_v1
  let main_c : IVec S_ 1 := constantI S_ 1 1#1
  let main_v3 : IVec S_ 1 := (fun x v => Host.reduce IntOp.andi x v reducesTo_S1x8192_S_d0_1 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  let main_v14 : FVec F S1x8192 .f32 := Host.absf main_arg3
  let main_cst_4 : FVec F S_ .f32 := constant S_ .f32 0x7F800000#32
  let main_v15 : FVec F S1x8192 .f32 := broadcastInDim S1x8192 ![] bcast_S_S1x8192 main_cst_4
  let main_v16 : IVec S1x8192 1 := cmpf .olt main_v14 main_v15
  fn_part1 (F := F) main_arg4 main_arg5 main_arg6 main_v13 main_v16
-- ==== Kernel.lean ====
abbrev S1x8192 : Shape := ⟨2, ![1, 8192]⟩
abbrev S8192x8192 : Shape := ⟨2, ![8192, 8192]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8192x1 : Shape := ⟨2, ![8192, 1]⟩
abbrev S1024x1 : Shape := ⟨2, ![1024, 1]⟩

abbrev nBuf : Space → Nat
  | .hbm => 20
  | .vmem => 23
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S1x8192, .f32⟩
  | .hbm, ⟨8, _⟩ => ⟨S_, .f32⟩
  | .hbm, ⟨9, _⟩ => ⟨S1x8192, .f32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S1x8192, .f32⟩
  | .hbm, ⟨14, _⟩ => ⟨S1x8192, .f32⟩
  | .hbm, ⟨15, _⟩ => ⟨S1x8192, .f32⟩
  | .hbm, ⟨16, _⟩ => ⟨S8192x1, .f32⟩
  | .hbm, ⟨17, _⟩ => ⟨S8192x1, .f32⟩
  | .hbm, ⟨18, _⟩ => ⟨S8192x8192, .f32⟩
  | .hbm, ⟨19, _⟩ => ⟨S8192x8192, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1x2048, .f32⟩
  | .local _ .vmem, ⟨18, _⟩ => ⟨S1x2048, .f32⟩
  | .local _ .vmem, ⟨19, _⟩ => ⟨S1024x2048, .f32⟩
  | .local _ .vmem, ⟨20, _⟩ => ⟨S1024x2048, .f32⟩
  | .local _ .vmem, ⟨21, _⟩ => ⟨S1024x2048, .f32⟩
  | .local _ .vmem, ⟨22, _⟩ => ⟨S1024x2048, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1024_S1x1024_0_0 : ∀ a, (![0, 0] : Fin 2 → Nat) a + S1x1024.size a ≤ S1x1024.size a
  h_S1x1024 : 0 < S1x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  natLt_1_32 : 1 < 32
  bcast_S_S1x8192 : S_.BroadcastsInDim S1x8192 (![] : Fin 0 → Fin S1x8192.rank)
  shapeCasts_S1x8192_S8192x1 : S1x8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  broadcasts_S1x2048_S1024x2048 : S1x2048.Broadcasts S1024x2048
  dot_S1x1024_S1024x2048_S1x2048_1_0_0_1_n_n_wf : DotDims.WF S1x1024 S1024x2048 S1x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x8192.size a
  hwx0_0 : ∀ i : grid0.Coords, EltTy.bits .f32 = 32 ∨ (Rect.block (s := S1x8192) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S8192x8192.size a
  hwx0_3 : ∀ i : grid0.Coords, EltTy.bits .f32 = 32 ∨ (Rect.block (s := S8192x8192) S1024x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .f32 = 32 ∨ (Rect.block (s := S1x8192) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x8192.size a
  hwx1_3 : ∀ i : grid1.Coords, EltTy.bits .f32 = 32 ∨ (Rect.block (s := S8192x8192) S1024x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x2048.size a ≤ S8192x8192.size a
  hwx1_4 : ∀ i : grid1.Coords, EltTy.bits .f32 = 32 ∨ (Rect.block (s := S8192x8192) S1024x2048.size (cc1_transform_4 i) (hinb1_4 i)).WholeWords (EltTy.packing .f32)

variable [Facts₀]

def dot_S1x1024_S1024x2048_S1x2048_1_0_0_1_n_n : DotDims S1x1024 S1024x2048 S1x2048 where
  lhsContracting := [1]
  rhsContracting := [0]
  lhsNonContracting := [0]
  rhsNonContracting := [1]
  lhsBatch := []
  rhsBatch := []
  wf := dot_S1x1024_S1024x2048_S1x2048_1_0_0_1_n_n_wf

abbrev win0_0 : Pipeline.Window sig grid0 :=
  Pipeline.Window.ofSpec (Memref.whole main_arg0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1024x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v7) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S1024x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S1024x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x8192 : Shape := ⟨2, ![1, 8192]⟩
abbrev S8192x8192 : Shape := ⟨2, ![8192, 8192]⟩
abbrev S_ : Shape := ⟨0, ![]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x8192, .f32⟩
  | .hbm, ⟨11, _⟩ => ⟨S_, .f32⟩
  | .hbm, ⟨12, _⟩ => ⟨S1x8192, .f32⟩
  | .hbm, ⟨13, _⟩ => ⟨S1x8192, .i1⟩
  | .hbm, ⟨14, _⟩ => ⟨S1x8192, .f32⟩
  | .hbm, ⟨15, _⟩ => ⟨S_, .f32⟩
  | .hbm, ⟨16, _⟩ => ⟨S1x8192, .f32⟩
  | .hbm, ⟨17, _⟩ => ⟨S1x8192, .f32⟩
  | .hbm, ⟨18, _⟩ => ⟨S1x8192, .f32⟩
  | .hbm, ⟨19, _⟩ => ⟨S_, .f32⟩
  | .hbm, ⟨20, _⟩ => ⟨S1x8192, .f32⟩
  | .hbm, ⟨21, _⟩ => ⟨S1x8192, .f32⟩
  | .hbm, ⟨22, _⟩ => ⟨S1x8192, .f32⟩
  | .hbm, ⟨23, _⟩ => ⟨S8192x1, .f32⟩
  | .hbm, ⟨24, _⟩ => ⟨S8192x8192, .f32⟩
  | .hbm, ⟨25, _⟩ => ⟨S8192x1, .f32⟩
  | .hbm, ⟨26, _⟩ => ⟨S8192x8192, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  transposes_S1x8192_S8192x1_1_0 : S1x8192.Transposes [1, 0] S8192x1
  dot_S1x8192_S8192x8192_S1x8192_1_0_0_1_n_n_wf : DotDims.WF S1x8192 S8192x8192 S1x8192 [1] [0] [0] [1] [] []
  dot_S8192x1_S1x8192_S8192x8192_1_0_0_1_n_n_wf : DotDims.WF S8192x1 S1x8192 S8192x8192 [1] [0] [0] [1] [] []

variable [Facts₀]

def dot_S1x8192_S8192x8192_S1x8192_1_0_0_1_n_n : DotDims S1x8192 S8192x8192 S1x8192 where
  lhsContracting := [1]
  rhsContracting := [0]
  lhsNonContracting := [0]
  rhsNonContracting := [1]
  lhsBatch := []
  rhsBatch := []
  wf := dot_S1x8192_S8192x8192_S1x8192_1_0_0_1_n_n_wf
def dot_S8192x1_S1x8192_S8192x8192_1_0_0_1_n_n : DotDims S8192x1 S1x8192 S8192x8192 where
  lhsContracting := [1]
  rhsContracting := [0]
  lhsNonContracting := [0]
  rhsNonContracting := [1]
  lhsBatch := []
  rhsBatch := []
  wf := dot_S8192x1_S1x8192_S8192x8192_1_0_0_1_n_n_wf

class Facts : Prop extends Facts₀ where

variable [Facts]
-- ==== Proof.K.R0Run.lean ====
/-
  The first pallas_call of the kernel's program, on the grid (j, k) of 4 x 8 points, k the contracted block:
  at k = 0 the accumulator (a VMEM scratch of one row of 2048 lanes, kept from point to point) is cleared; at every k
  the products x[k-block] · w1[k-block, j-block] and x1[k-block] · w2[k-block, j-block] are added to it; at k = 7 the
  membrane row is added and compared with one half, and the 0/1 outcome is stored as the spike row's j-block.
  This module runs the printed body in each of its three control cases — first point of a row of the grid (clear, then
  add), a middle point (add), last point (add, then emit) — on any whole staging memrefs and at any float instance,
  and says what the scratch and the output buffer hold afterwards as plain terms over the body's named arithmetic:
  the accumulator after a point is `k0_pay2` of the four input blocks and of what it held before (`k0_pay1`, the zero
  row, where the point cleared it), and the emitted block is `k0_pay3` of the membrane block and the accumulator.
-/
import proofs.«178683_j27358941675618_1_alg».proof.Proof.Gen.Kernel.Launch
import proofs.«178683_j27358941675618_1_alg».proof.Proof.Gen.Kernel.Skeleton
import proofs.«178683_j27358941675618_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The body's first `scf.if`: the contracted coordinate is zero (the accumulator is cleared). -/
abbrev cond0_0 (i : grid0.Coords) : Prop := (Scalar.cmpi .ne (Scalar.extui (Scalar.cmpi .eq (BitVec.ofNat 32 (i 1).val) 0#32)) 0#32) = 1#1
/-- The body's second `scf.if`: the contracted coordinate is the last, 7 (the spikes are emitted). -/
abbrev cond0_1 (i : grid0.Coords) : Prop := k0_cond2 i = 1#1

/-- Along the grid's row-major order the contracted coordinate of point `t` is `t % 8`: the first condition holds at
    the points ≡ 0, -/
theorem hcond0_0 : ∀ t : Fin cfg0.N, cond0_0 (grid0.coords t) ↔ t.val % 8 = 0 :=
  (by decide +kernel : ∀ t : Fin grid0.N, cond0_0 (grid0.coords t) ↔ t.val % 8 = 0)
/-- the second at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Whole-buffer accesses -/

/-- The offsets of every load and store of this body are zero on both axes. -/
theorem off_zero : (![0, 0] : Fin 2 → ℕ) = fun _ => 0 := by
  funext a; fin_cases a <;> rfl

/-- A list of stores whose LAST is of the whole buffer covers the buffer. -/
theorem cover_head {S : Shape} {e : EltTy} (hr : S.rank = 2) (off : Fin S.rank → ℕ) (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.2 (Or.inl rfl), View.mem_set_unit_zero h inb y⟩

/-! ## The body's three runs -/

set_option maxHeartbeats 2000000 in
/-- FIRST POINT OF A GRID ROW (k = 0): the accumulator, whatever it held, is cleared and then receives this block's two
    products; the output buffer is not touched and keeps its contents `y`. -/
theorem run0_first (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : cond0_0 i) (hc1 : ¬cond0_1 i)
    (x0 x1 : Vec F S1x1024 .f32) (w1 w2 : Vec F S1024x2048 .f32) (mem y : Vec F S1x2048 .f32) (K : PUnit → sProp 𝕄) :
    iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
        ∗ owns (c : Thread nD τ) arg7 fullShare y ∗ (∃ d, owns (c : Thread nD τ) arg8 fullShare d)
        ∗ (iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
            ∗ owns (c : Thread nD τ) arg7 fullShare y ∗ owns (c : Thread nD τ) arg8 fullShare (k0_pay2 x0 x1 w1 w2 (k0_pay1 (F := F)))) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  sl_unfold_run_names
  rw [View.read_writes_eq_canon _ _ _ (cover_head rfl _ off_zero _ _ _), View.canon_cons_unit_zero off_zero]
  simp only [View.readAt_eq_ld, View.ld_unit_zero (S := S1x1024) off_zero, View.ld_unit_zero (S := S1024x2048) off_zero,
    View.ld_unit_zero (S := S1x2048) off_zero, View.readCov_unit_zero (S := S1x2048) _ off_zero]

set_option maxHeartbeats 2000000 in
/-- A MIDDLE POINT (0 < k < 7): the accumulator, holding `a`, receives this block's two products; the output buffer is
    not touched and keeps its contents `y`. -/
theorem run0_mid (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬cond0_0 i) (hc1 : ¬cond0_1 i)
    (x0 x1 : Vec F S1x1024 .f32) (w1 w2 : Vec F S1024x2048 .f32) (mem y a : Vec F S1x2048 .f32) (K : PUnit → sProp 𝕄) :
    iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
        ∗ owns (c : Thread nD τ) arg7 fullShare y ∗ owns (c : Thread nD τ) arg8 fullShare a
        ∗ (iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
            ∗ owns (c : Thread nD τ) arg7 fullShare y ∗ owns (c : Thread nD τ) arg8 fullShare (k0_pay2 x0 x1 w1 w2 a)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0; subst hf1; subst hf2; subst hf3; subst hf4; subst hf5; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  sl_unfold_run_names
  rw [View.read_writes_eq_canon _ _ _ (cover_head rfl _ off_zero _ _ _), View.canon_cons_unit_zero off_zero]
  simp only [View.readAt_eq_ld, View.ld_unit_zero (S := S1x1024) off_zero, View.ld_unit_zero (S := S1024x2048) off_zero,
    View.ld_unit_zero (S := S1x2048) off_zero, View.readCov_unit_zero (S := S1x2048) _ off_zero]

set_option maxHeartbeats 2000000 in
/-- LAST POINT OF A GRID ROW (k = 7): the accumulator, holding `a`, receives this block's two products, and the output
    buffer, whatever it held, receives the spikes of the membrane block and the finished accumulator. -/
theorem run0_last (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬cond0_0 i) (hc1 : cond0_1 i)
    (x0 x1 : Vec F S1x1024 .f32) (w1 w2 : Vec F S1024x2048 .f32) (mem a : Vec F S1x2048 .f32) (K : PUnit → sProp 𝕄) :
    iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
        ∗ (∃ d, owns (c : Thread nD τ) arg7 fullShare d) ∗ owns (c : Thread nD τ) arg8 fullShare a
        ∗ (iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
            ∗ owns (c : Thread nD τ) arg7 fullShare (k0_pay3 mem (k0_pay2 x0 x1 w1 w2 a)) ∗ owns (c : Thread nD τ) arg8 fullShare (k0_pay2 x0 x1 w1 w2 a)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0; subst hf1; subst hf2; subst hf3; subst hf4; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (cover_head rfl _ off_zero _ _ _), View.canon_cons_unit_zero off_zero]
    simp only [View.readAt_eq_ld, View.ld_unit_zero (S := S1x1024) off_zero, View.ld_unit_zero (S := S1024x2048) off_zero,
      View.ld_unit_zero (S := S1x2048) off_zero, View.readCov_unit_zero (S := S1x2048) _ off_zero]
  iexists _; isplitr
  swap; · iexact H8
  ipureintro
  sl_unfold_run_names
  rw [View.read_writes_eq_canon _ _ _ (cover_head rfl _ off_zero _ _ _), View.canon_cons_unit_zero off_zero]
  simp only [View.readAt_eq_ld, View.ld_unit_zero (S := S1x1024) off_zero, View.ld_unit_zero (S := S1024x2048) off_zero,
    View.ld_unit_zero (S := S1x2048) off_zero, View.readCov_unit_zero (S := S1x2048) _ off_zero]

end Cert.Kernel.Hand

end
-- ==== Proof.K.R0Body.lean ====
/-
  The first pallas_call as the pipeline library sees it. For any contents `V` of the core's arrays at the call's entry
  and at any float instance: the blocks of its six windows; THE ACCUMULATOR point by point — along the grid's row-major
  order point `t` has contracted coordinate `t % 8`, so after point `t` the scratch holds the sum begun at the last
  point ≡ 0 (mod 8) at or before `t`, spelt with the body's own arithmetic: `k0_pay2` of the four input blocks at `t`
  over `k0_pay1` (the zero row) when `t % 8 = 0`, over what point `t - 1` left otherwise —; the spike block the call
  emits at the points ≡ 7 (mod 8), `k0_pay3` of the membrane block and the finished accumulator; the invariant that
  carries the scratch at exactly those contents from one point to the next (before the first point the scratch holds
  anything); and the body obligation, by the three runs of the body.
  The output window is written back only at the points ≡ 7: elsewhere the body stores nothing into its buffer and hands
  it back as it found it.
-/
import proofs.«178683_j27358941675618_1_alg».proof.Proof.Gen.Kernel.Launch
import proofs.«178683_j27358941675618_1_alg».proof.Proof.Gen.Kernel.Skeleton
import proofs.«178683_j27358941675618_1_alg».proof.Proof.Gen.Kernel.Points
import proofs.«178683_j27358941675618_1_alg».proof.Proof.K.R0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Block `t` of window `w` of the first call, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x is in its staging buffer at every point, fetched there or not: the block index moves only when the
    pipeline fetches, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the block of x1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the block of w1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the block of w2. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The same for the membrane block, which is fetched only at the first point of each grid row. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The kernel's scratch operand: one row of 2048 lanes, a whole scoped buffer of its own. -/
abbrev scM : Memref sig .tc .vmem S1x2048 .f32 := Memref.whole cc0_scratch0

/-- What the scratch holds after the body at point `n`. -/
def accAt (c : Dev nD) : (n : ℕ) → n < cfg0.N → Vec F S1x2048 .f32
  | 0, hn => k0_pay2 (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 8 = 0 then k0_pay2 (iblk0 V c 0 ⟨n + 1, hn⟩) (iblk0 V c 1 ⟨n + 1, hn⟩) (iblk0 V c 2 ⟨n + 1, hn⟩) (iblk0 V c 3 ⟨n + 1, hn⟩) (k0_pay1 (F := F))
    else k0_pay2 (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn))

/-- At the first point of a grid row the sum starts afresh from the zero row. -/
theorem accAt_first (c : Dev nD) (t : Fin cfg0.N) (h0 : t.val % 8 = 0) :
    accAt V c t.val t.isLt = k0_pay2 (iblk0 V c 0 t) (iblk0 V c 1 t) (iblk0 V c 2 t) (iblk0 V c 3 t) (k0_pay1 (F := F)) := by
  obtain ⟨n, hn⟩ := t
  cases n with
  | zero => rfl
  | succ n => exact (if_pos h0).trans rfl

/-- At any other point it continues from what the point before left. -/
theorem accAt_next (c : Dev nD) (t : Fin cfg0.N) (h0 : ¬t.val % 8 = 0) :
    accAt V c t.val t.isLt = k0_pay2 (iblk0 V c 0 t) (iblk0 V c 1 t) (iblk0 V c 2 t) (iblk0 V c 3 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The scoped buffers of the core that this call neither stages nor uses (the second call's staging buffers), each
    whole at some contents. -/
def restOther (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- What the call keeps between points, before position `n`: before the first point the untouched scoped rest (the
    scratch at anything) and the generator register; afterwards the scratch at the accumulator's contents after point
    `n - 1`, the other scoped buffers at anything, the generator register. -/
def PhiS (c : Dev nD) : (n : ℕ) → n ≤ cfg0.N → sProp 𝕄
  | 0, _ => Pipeline.ΦA spec0 c
  | n + 1, hn => iprop((owns (c : Thread nD τ) scM fullShare (accAt V c n hn) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restOther (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restOther (F := F) c) ∗ (∃ r, prngReg c r)) := by
  cases n with
  | zero => exact absurd rfl hz
  | succ n => rfl

/-- The untouched scoped rest, with the scratch as a memref owned at some contents. -/
theorem PhiA0_eq (c : Dev nD) :
    (Pipeline.ΦA spec0 c : sProp 𝕄)
      = iprop(((∃ d, owns (c : Thread nD τ) scM fullShare d) ∗ restOther (F := F) c) ∗ (∃ r, prngReg c r)) := by
  unfold Pipeline.ΦA restOther; rw [scopedRest0_eq]; simp only [scM, owns_whole]; try rfl

/-! ## The call's proof data -/

/-- What the pipeline library is told about the first call on core `c`: the arrays as the call finds them; after the
    body at point `t` every input buffer at its block and the output buffer at the spikes of the membrane block and the
    accumulator (consulted only where the block is written back, at the points ≡ 7 mod 8); between points `PhiS`;
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 4 t) (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (iblk0 V c 4 t) (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## Where the output window is idle -/

/-- Away from the last point of a grid row the configuration calls the output window idle: the body stores nothing, -/
theorem idleAt0_5 : ∀ t : Fin cfg0.N, ¬cond0_1 (grid0.coords t) → cfg0.idle 5 (grid0.coords t) = true := by decide +kernel
/-- and the pipeline does not write its block back. -/
theorem noFlush0_5 : ∀ t : Fin cfg0.N, ¬cond0_1 (grid0.coords t) → (cfg0.win 5).flush t = false := by decide +kernel
/-- At the last point of a grid row it is live. -/
theorem liveAt0_5 : ∀ t : Fin cfg0.N, cond0_1 (grid0.coords t) → cfg0.idle 5 (grid0.coords t) = false := by decide +kernel

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any point. The input buffers hold their blocks; `t % 8` says which of the three runs applies; the
    invariant hands the body the scratch at what the point before left (at anything before the first point) and takes it
    back at this point's accumulator; where the output window is idle its buffer comes back as it was handed over. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from rfl, after0_3,
    show (dat0 V c).leavesExact 4 t = owns (c : Thread nD τ) (st0_4 t) fullShare ((dat0 V c).after 4 t) from rfl, after0_4]
  have hN : t.val < 32 := lt_of_lt_of_eq t.isLt (show cfg0.N = 32 from N_0)
  by_cases h0 : t.val % 8 = 0
  · have h1 : ¬t.val % 8 = 7 := by omega
    rw [Dat.leavesExact_idle (dat0 V c) 5 t (idleAt0_5 t (fun h => h1 ((hcond0_1 t).mp h))) (noFlush0_5 t (fun h => h1 ((hcond0_1 t).mp h)))]
    rw [accAt_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_first c Set.univ (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_first c Set.univ (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_next V c t h0]
    rw [PhiS_castSucc V c t, PhiS_pos V c _ _ hz]
    by_cases h1 : t.val % 8 = 7
    · rw [show (dat0 V c).leavesExact 5 t = owns (c : Thread nD τ) (st0_5 t) fullShare ((dat0 V c).after 5 t) from by
        unfold Dat.leavesExact; rw [liveAt0_5 t ((hcond0_1 t).mpr h1)], after0_5, accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_last c Set.univ (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (accAt V c (t.val - 1) _) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idleAt0_5 t (fun h => h1 ((hcond0_1 t).mp h))) (noFlush0_5 t (fun h => h1 ((hcond0_1 t).mp h)))]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_mid c Set.univ (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) ((dat0 V c).before 5 t d5) (accAt V c (t.val - 1) _) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline library's body obligation for the first call, at every point. -/
theorem body_obligation0 (c : Dev nD) : BodyObligation (dat0 (F := F) V c) (defs₀ (F := F)) Variants.none () Set.univ := fun t => by
  rw [bigSep_W0, bigSep_W0]
  exact sound_body0 V c t

/-! ## The invariant at the call's two ends -/

/-- What the call is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After the last point the invariant gives the untouched scoped rest back: the accumulator's contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end

end Cert.Kernel.Hand

end
-- ==== Proof.K.R1Body.lean ====
/-
  The second pallas_call of the kernel's program: at grid point (i, j) it forms two rank-one blocks,
  dw1[i-block, j-block] = t1col[i-block] ⊗ s[j-block] and dw2[i-block, j-block] = t2col[i-block] ⊗ s[j-block],
  each a column of 1024 entries broadcast along the lanes times a row of 2048 entries broadcast along the rows.
  This module says, at any float instance and for any contents `V` of the core's arrays when the call is entered:
  what each window's block is, what the body leaves in the two output staging buffers as a function of its three input
  blocks, and that the body, run by the pipeline at any point, does leave exactly that (the body obligation).
  Nothing is carried from point to point: the call's invariant is the scoped buffers it does not stage and the
  generator register, untouched.
-/
import proofs.«178683_j27358941675618_1_alg».proof.Proof.Gen.Kernel.Launch
import proofs.«178683_j27358941675618_1_alg».proof.Proof.Gen.Kernel.Skeleton
import proofs.«178683_j27358941675618_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Block `t` of window `w` of the second call, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The column block of t1 is in its staging buffer at every point, fetched there or not: the block index moves only
    when the pipeline fetches, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the column block of t2. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the row block of the spikes. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes a whole staging buffer -/

abbrev rCol : Rect S1024x1 := Rect.unit (s := S1024x1) ![0, 0] S1024x1.size inb_S1024x1_S1024x1_0_0
abbrev rRow : Rect S1x2048 := Rect.unit (s := S1x2048) ![0, 0] S1x2048.size inb_S1x2048_S1x2048_0_0
abbrev rBlk : Rect S1024x2048 := Rect.unit (s := S1024x2048) ![0, 0] S1024x2048.size inb_S1024x2048_S1024x2048_0_0

/-! ## What the body leaves in the two output buffers -/

/-- The dw1 block after the body: its one store, the product of the broadcast t1 column and the broadcast spike row. -/
def out1_3 (tc : Vec F S1024x1 .f32) (sr : Vec F S1x2048 .f32) : Vec F S1024x2048 .f32 :=
  View.canon [⟨rBlk, k1_pay2 (View.ld tc rCol) (View.ld sr rRow)⟩]
/-- The dw2 block after the body: the same with the t2 column. -/
def out1_4 (tc : Vec F S1024x1 .f32) (sr : Vec F S1x2048 .f32) : Vec F S1024x2048 .f32 :=
  View.canon [⟨rBlk, k1_pay3 (View.ld tc rCol) (View.ld sr rRow)⟩]

/-- One store of the whole block covers the block. -/
theorem cover1_blk (p0 : Vec F S1024x2048 .f32) (y : S1024x2048.Idx) :
    ∃ pc ∈ ([⟨rBlk, p0⟩] : List (View.Piece (Elt F) S1024x2048 .f32)), y ∈ pc.1.set :=
  View.cover_of_tiled [⟨rBlk, p0⟩] S1024x2048.size (by rfl) y

/-! ## The body's run -/

set_option maxHeartbeats 2000000 in
/-- On whole staging memrefs — the three inputs at contents `tc1`, `tc2`, `sr`, the two outputs at anything — the body
    runs to its end leaving the inputs as they were and the outputs at the two rank-one blocks. -/
theorem sound_kernel1 (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (tc1 tc2 : Vec F S1024x1 .f32) (sr : Vec F S1x2048 .f32) (K : PUnit → sProp 𝕄) :
    iprop(owns (c : Thread nD τ) arg2 fullShare tc1 ∗ owns (c : Thread nD τ) arg3 fullShare tc2 ∗ owns (c : Thread nD τ) arg4 fullShare sr
        ∗ (∃ d, owns (c : Thread nD τ) arg5 fullShare d) ∗ (∃ d, owns (c : Thread nD τ) arg6 fullShare d)
        ∗ (iprop(owns (c : Thread nD τ) arg2 fullShare tc1 ∗ owns (c : Thread nD τ) arg3 fullShare tc2 ∗ owns (c : Thread nD τ) arg4 fullShare sr
            ∗ owns (c : Thread nD τ) arg5 fullShare (out1_3 tc1 sr) ∗ owns (c : Thread nD τ) arg6 fullShare (out1_4 tc2 sr)) -∗ K ⟨⟩))
      ⊢ wp frame (wpE (defs₀ (F := F)) Variants.none c none) E (cc1__kernel_b i arg2 harg2 arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_blk _)
  iexists _; isplitr
  swap; · iexact H4
  ipureintro
  exact View.read_writes_eq_canon _ _ _ (cover1_blk _)

/-! ## The call's proof data -/

/-- What the pipeline library is told about the second call on core `c`: the arrays as the call finds them; after the
    body at point `t` every input buffer at its block and the two output buffers at the rank-one blocks of the input
    blocks; between points only the untouched scoped rest and the generator register; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 2 t)
    | ⟨4, _⟩ => out1_4 (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 2 t) := by dsimp only [dat1]
theorem after1_4 (c : Dev nD) (t : Fin cfg1.N) : (dat1 V c).after 4 t = out1_4 (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the input buffers hold their blocks, so the run applies; the invariant and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for the second call, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
/-
  The kernel's whole program as the pipeline library's list of segments — the first pallas_call, the ten host
  operations (the two decayed traces and their reshapes into columns), the second pallas_call — launched once and run
  to the end, at any float instance. Between two segments the core holds every unscoped buffer at named contents:
  at launch the memory itself; after the first call the same with the spike row at what the call's write-backs left;
  after the host operations their results on top; after the second call the two update matrices at what its
  write-backs left. The run's conclusion names every unscoped buffer's final contents; the frame (the seven
  arguments end as launched) is read off it here, the three results in the value modules.
-/
import proofs.«178683_j27358941675618_1_alg».proof.Proof.Gen.Kernel.Launch
import proofs.«178683_j27358941675618_1_alg».proof.Proof.Gen.Kernel.Skeleton
import proofs.«178683_j27358941675618_1_alg».proof.Proof.Gen.Kernel.Points
import proofs.«178683_j27358941675618_1_alg».proof.Proof.K.R0Body
import proofs.«178683_j27358941675618_1_alg».proof.Proof.K.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => m (c, b)
/-- The same read at the TensorCore's references: what the first call's proof data take. -/
abbrev V0 : (c : Dev nD) → (b : Ref sig .tc) → Buf (Elt F) ((c : Thread nD τ).loc b) := fun c b => W0 m c b

/-- After the first call: its arrays at what the pipeline leaves (the inputs as entered, the spike row's write-backs
    folded), every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the ten host operations (the second call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second call: its arrays at what the pipeline leaves (the two columns and the spike row as entered, the two
    matrices' write-backs folded), every other buffer as it was. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched

No host operation writes an argument; the first call reads five of them through input windows (an input's array ends
as it was entered) and bypasses the two traces; the second call touches none. -/

/-- `main_arg0` ends as launched. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl
/-- `main_arg1` ends as launched. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl
/-- `main_arg2` ends as launched. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg2) := (W1_arr m c 4).trans (((dat0 (V0 m) c).arrAt_in 4 rfl _).trans (A_eq0 (V0 m) c 4))
    _ = m ((c : Thread nD τ).loc main_arg2) := rfl
/-- `main_arg3` ends as launched. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl
/-- `main_arg4` ends as launched. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg4) := W1_of_ne m c main_arg4 (by decide)
    _ = m ((c : Thread nD τ).loc main_arg4) := rfl
/-- `main_arg5` ends as launched. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg5) := (W1_arr m c 2).trans (((dat0 (V0 m) c).arrAt_in 2 rfl _).trans (A_eq0 (V0 m) c 2))
    _ = m ((c : Thread nD τ).loc main_arg5) := rfl
/-- `main_arg6` ends as launched. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg6) := (W1_arr m c 3).trans (((dat0 (V0 m) c).arrAt_in 3 rfl _).trans (A_eq0 (V0 m) c 3))
    _ = m ((c : Thread nD τ).loc main_arg6) := rfl

/-! ## The proof data family and the thread state -/

/-- Neither call has a prefetched table. -/
abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes: every unscoped buffer at the final contents, the generator
    register at some state. -/
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer of each core holds its contents at the last
    boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, at any float instance: the program runs to its end and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.Kernel.Hand

end
-- ==== Proof.KI.R0Run.lean ====
/-
  The first pallas_call of the kernel's program, on the grid (j, k) of 4 x 8 points, k the contracted block:
  at k = 0 the accumulator (a VMEM scratch of one row of 2048 lanes, kept from point to point) is cleared; at every k
  the products x[k-block] · w1[k-block, j-block] and x1[k-block] · w2[k-block, j-block] are added to it; at k = 7 the
  membrane row is added and compared with one half, and the 0/1 outcome is stored as the spike row's j-block.
  This module runs the printed body in each of its three control cases — first point of a row of the grid (clear, then
  add), a middle point (add), last point (add, then emit) — on any whole staging memrefs and at any float instance,
  and says what the scratch and the output buffer hold afterwards as plain terms over the body's named arithmetic:
  the accumulator after a point is `k0_pay2` of the four input blocks and of what it held before (`k0_pay1`, the zero
  row, where the point cleared it), and the emitted block is `k0_pay3` of the membrane block and the accumulator.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, from the grid coordinates -/

/-- The body's first `scf.if`: the contracted coordinate is zero (the accumulator is cleared). -/
abbrev cond0_0 (i : grid0.Coords) : Prop := (Scalar.cmpi .ne (Scalar.extui (Scalar.cmpi .eq (BitVec.ofNat 32 (i 1).val) 0#32)) 0#32) = 1#1
/-- The body's second `scf.if`: the contracted coordinate is the last, 7 (the spikes are emitted). -/
abbrev cond0_1 (i : grid0.Coords) : Prop := k0_cond2 i = 1#1

/-- Along the grid's row-major order the contracted coordinate of point `t` is `t % 8`: the first condition holds at
    the points ≡ 0, -/
theorem hcond0_0 : ∀ t : Fin cfg0.N, cond0_0 (grid0.coords t) ↔ t.val % 8 = 0 :=
  (by decide +kernel : ∀ t : Fin grid0.N, cond0_0 (grid0.coords t) ↔ t.val % 8 = 0)
/-- the second at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Whole-buffer accesses -/

/-- The offsets of every load and store of this body are zero on both axes. -/
theorem off_zero : (![0, 0] : Fin 2 → ℕ) = fun _ => 0 := by
  funext a; fin_cases a <;> rfl

/-- A list of stores whose LAST is of the whole buffer covers the buffer. -/
theorem cover_head {S : Shape} {e : EltTy} (hr : S.rank = 2) (off : Fin S.rank → ℕ) (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.2 (Or.inl rfl), View.mem_set_unit_zero h inb y⟩

/-! ## The body's three runs -/

set_option maxHeartbeats 2000000 in
/-- FIRST POINT OF A GRID ROW (k = 0): the accumulator, whatever it held, is cleared and then receives this block's two
    products; the output buffer is not touched and keeps its contents `y`. -/
theorem run0_first (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : cond0_0 i) (hc1 : ¬cond0_1 i)
    (x0 x1 : Vec F S1x1024 .f32) (w1 w2 : Vec F S1024x2048 .f32) (mem y : Vec F S1x2048 .f32) (K : PUnit → sProp 𝕄) :
    iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
        ∗ owns (c : Thread nD τ) arg7 fullShare y ∗ (∃ d, owns (c : Thread nD τ) arg8 fullShare d)
        ∗ (iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
            ∗ owns (c : Thread nD τ) arg7 fullShare y ∗ owns (c : Thread nD τ) arg8 fullShare (k0_pay2 x0 x1 w1 w2 (k0_pay1 (F := F)))) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, Hk⟩
  subst hf0; subst hf1; subst hf2; subst hf3; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  sl_unfold_run_names
  rw [View.read_writes_eq_canon _ _ _ (cover_head rfl _ off_zero _ _ _), View.canon_cons_unit_zero off_zero]
  simp only [View.readAt_eq_ld, View.ld_unit_zero (S := S1x1024) off_zero, View.ld_unit_zero (S := S1024x2048) off_zero,
    View.ld_unit_zero (S := S1x2048) off_zero, View.readCov_unit_zero (S := S1x2048) _ off_zero]

set_option maxHeartbeats 2000000 in
/-- A MIDDLE POINT (0 < k < 7): the accumulator, holding `a`, receives this block's two products; the output buffer is
    not touched and keeps its contents `y`. -/
theorem run0_mid (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬cond0_0 i) (hc1 : ¬cond0_1 i)
    (x0 x1 : Vec F S1x1024 .f32) (w1 w2 : Vec F S1024x2048 .f32) (mem y a : Vec F S1x2048 .f32) (K : PUnit → sProp 𝕄) :
    iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
        ∗ owns (c : Thread nD τ) arg7 fullShare y ∗ owns (c : Thread nD τ) arg8 fullShare a
        ∗ (iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
            ∗ owns (c : Thread nD τ) arg7 fullShare y ∗ owns (c : Thread nD τ) arg8 fullShare (k0_pay2 x0 x1 w1 w2 a)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, Hk⟩
  subst hf0; subst hf1; subst hf2; subst hf3; subst hf4; subst hf5; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H8
  ipureintro
  sl_unfold_run_names
  rw [View.read_writes_eq_canon _ _ _ (cover_head rfl _ off_zero _ _ _), View.canon_cons_unit_zero off_zero]
  simp only [View.readAt_eq_ld, View.ld_unit_zero (S := S1x1024) off_zero, View.ld_unit_zero (S := S1024x2048) off_zero,
    View.ld_unit_zero (S := S1x2048) off_zero, View.readCov_unit_zero (S := S1x2048) _ off_zero]

set_option maxHeartbeats 2000000 in
/-- LAST POINT OF A GRID ROW (k = 7): the accumulator, holding `a`, receives this block's two products, and the output
    buffer, whatever it held, receives the spikes of the membrane block and the finished accumulator. -/
theorem run0_last (c : Dev nD) (E : Set ℕ) (i : grid0.Coords)
    (arg2 : Memref sig .tc .vmem S1x1024 .f32) (harg2 : arg2.IsWhole) (arg3 : Memref sig .tc .vmem S1x1024 .f32) (harg3 : arg3.IsWhole)
    (arg4 : Memref sig .tc .vmem S1024x2048 .f32) (harg4 : arg4.IsWhole) (arg5 : Memref sig .tc .vmem S1024x2048 .f32) (harg5 : arg5.IsWhole)
    (arg6 : Memref sig .tc .vmem S1x2048 .f32) (harg6 : arg6.IsWhole) (arg7 : Memref sig .tc .vmem S1x2048 .f32) (harg7 : arg7.IsWhole)
    (arg8 : Memref sig .tc .vmem S1x2048 .f32) (harg8 : arg8.IsWhole)
    (hc0 : ¬cond0_0 i) (hc1 : cond0_1 i)
    (x0 x1 : Vec F S1x1024 .f32) (w1 w2 : Vec F S1024x2048 .f32) (mem a : Vec F S1x2048 .f32) (K : PUnit → sProp 𝕄) :
    iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
        ∗ (∃ d, owns (c : Thread nD τ) arg7 fullShare d) ∗ owns (c : Thread nD τ) arg8 fullShare a
        ∗ (iprop(owns (c : Thread nD τ) arg2 fullShare x0 ∗ owns (c : Thread nD τ) arg3 fullShare x1 ∗ owns (c : Thread nD τ) arg4 fullShare w1 ∗ owns (c : Thread nD τ) arg5 fullShare w2 ∗ owns (c : Thread nD τ) arg6 fullShare mem
            ∗ owns (c : Thread nD τ) arg7 fullShare (k0_pay3 mem (k0_pay2 x0 x1 w1 w2 a)) ∗ owns (c : Thread nD τ) arg8 fullShare (k0_pay2 x0 x1 w1 w2 a)) -∗ K ⟨⟩))
      ⊢ wp frame (wpE (defs₀ (F := F)) Variants.none c none) E (cc0__kernel_a i arg2 harg2 arg3 harg3 arg4 harg4 arg5 harg5 arg6 harg6 arg7 harg7 arg8 harg8) K := by
  simp only [cc0__kernel_a_eq_skeleton]; unfold cc0__kernel_a_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0; subst hf1; subst hf2; subst hf3; subst hf4; subst hf8
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [View.read_writes_eq_canon _ _ _ (cover_head rfl _ off_zero _ _ _), View.canon_cons_unit_zero off_zero]
    simp only [View.readAt_eq_ld, View.ld_unit_zero (S := S1x1024) off_zero, View.ld_unit_zero (S := S1024x2048) off_zero,
      View.ld_unit_zero (S := S1x2048) off_zero, View.readCov_unit_zero (S := S1x2048) _ off_zero]
  iexists _; isplitr
  swap; · iexact H8
  ipureintro
  sl_unfold_run_names
  rw [View.read_writes_eq_canon _ _ _ (cover_head rfl _ off_zero _ _ _), View.canon_cons_unit_zero off_zero]
  simp only [View.readAt_eq_ld, View.ld_unit_zero (S := S1x1024) off_zero, View.ld_unit_zero (S := S1024x2048) off_zero,
    View.ld_unit_zero (S := S1x2048) off_zero, View.readCov_unit_zero (S := S1x2048) _ off_zero]

end Cert.KernelIdeal.Hand

end
-- ==== Proof.KI.R0Body.lean ====
/-
  The first pallas_call as the pipeline library sees it. For any contents `V` of the core's arrays at the call's entry
  and at any float instance: the blocks of its six windows; THE ACCUMULATOR point by point — along the grid's row-major
  order point `t` has contracted coordinate `t % 8`, so after point `t` the scratch holds the sum begun at the last
  point ≡ 0 (mod 8) at or before `t`, spelt with the body's own arithmetic: `k0_pay2` of the four input blocks at `t`
  over `k0_pay1` (the zero row) when `t % 8 = 0`, over what point `t - 1` left otherwise —; the spike block the call
  emits at the points ≡ 7 (mod 8), `k0_pay3` of the membrane block and the finished accumulator; the invariant that
  carries the scratch at exactly those contents from one point to the next (before the first point the scratch holds
  anything); and the body obligation, by the three runs of the body.
  The output window is written back only at the points ≡ 7: elsewhere the body stores nothing into its buffer and hands
  it back as it found it.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import proofs.«178683_j27358941675618_1_alg».proof.Proof.KI.R0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Block `t` of window `w` of the first call, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x is in its staging buffer at every point, fetched there or not: the block index moves only when the
    pipeline fetches, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the block of x1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for the block of w1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The same for the block of w2. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- The same for the membrane block, which is fetched only at the first point of each grid row. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The kernel's scratch operand: one row of 2048 lanes, a whole scoped buffer of its own. -/
abbrev scM : Memref sig .tc .vmem S1x2048 .f32 := Memref.whole cc0_scratch0

/-- What the scratch holds after the body at point `n`. -/
def accAt (c : Dev nD) : (n : ℕ) → n < cfg0.N → Vec F S1x2048 .f32
  | 0, hn => k0_pay2 (iblk0 V c 0 ⟨0, hn⟩) (iblk0 V c 1 ⟨0, hn⟩) (iblk0 V c 2 ⟨0, hn⟩) (iblk0 V c 3 ⟨0, hn⟩) (k0_pay1 (F := F))
  | n + 1, hn =>
    if (n + 1) % 8 = 0 then k0_pay2 (iblk0 V c 0 ⟨n + 1, hn⟩) (iblk0 V c 1 ⟨n + 1, hn⟩) (iblk0 V c 2 ⟨n + 1, hn⟩) (iblk0 V c 3 ⟨n + 1, hn⟩) (k0_pay1 (F := F))
    else k0_pay2 (iblk0 V c 0 ⟨n + 1, hn⟩) (iblk0 V c 1 ⟨n + 1, hn⟩) (iblk0 V c 2 ⟨n + 1, hn⟩) (iblk0 V c 3 ⟨n + 1, hn⟩) (accAt c n (Nat.lt_of_succ_lt hn))

/-- At the first point of a grid row the sum starts afresh from the zero row. -/
theorem accAt_first (c : Dev nD) (t : Fin cfg0.N) (h0 : t.val % 8 = 0) :
    accAt V c t.val t.isLt = k0_pay2 (iblk0 V c 0 t) (iblk0 V c 1 t) (iblk0 V c 2 t) (iblk0 V c 3 t) (k0_pay1 (F := F)) := by
  obtain ⟨n, hn⟩ := t
  cases n with
  | zero => rfl
  | succ n => exact (if_pos h0).trans rfl

/-- At any other point it continues from what the point before left. -/
theorem accAt_next (c : Dev nD) (t : Fin cfg0.N) (h0 : ¬t.val % 8 = 0) :
    accAt V c t.val t.isLt = k0_pay2 (iblk0 V c 0 t) (iblk0 V c 1 t) (iblk0 V c 2 t) (iblk0 V c 3 t) (accAt V c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The scoped buffers of the core that this call neither stages nor uses (the second call's staging buffers), each
    whole at some contents. -/
def restOther (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- What the call keeps between points, before position `n`: before the first point the untouched scoped rest (the
    scratch at anything) and the generator register; afterwards the scratch at the accumulator's contents after point
    `n - 1`, the other scoped buffers at anything, the generator register. -/
def PhiS (c : Dev nD) : (n : ℕ) → n ≤ cfg0.N → sProp 𝕄
  | 0, _ => Pipeline.ΦA spec0 c
  | n + 1, hn => iprop((owns (c : Thread nD τ) scM fullShare (accAt V c n hn) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM fullShare (accAt V c n hn) ∗ restOther (F := F) c) ∗ (∃ r, prngReg c r)) := rfl

theorem PhiS_pos (c : Dev nD) (n : ℕ) (h : n ≤ cfg0.N) (hz : n ≠ 0) :
    PhiS V c n h = iprop((owns (c : Thread nD τ) scM fullShare (accAt V c (n - 1) (by omega)) ∗ restOther (F := F) c) ∗ (∃ r, prngReg c r)) := by
  cases n with
  | zero => exact absurd rfl hz
  | succ n => rfl

/-- The untouched scoped rest, with the scratch as a memref owned at some contents. -/
theorem PhiA0_eq (c : Dev nD) :
    (Pipeline.ΦA spec0 c : sProp 𝕄)
      = iprop(((∃ d, owns (c : Thread nD τ) scM fullShare d) ∗ restOther (F := F) c) ∗ (∃ r, prngReg c r)) := by
  unfold Pipeline.ΦA restOther; rw [scopedRest0_eq]; simp only [scM, owns_whole]; try rfl

/-! ## The call's proof data -/

/-- What the pipeline library is told about the first call on core `c`: the arrays as the call finds them; after the
    body at point `t` every input buffer at its block and the output buffer at the spikes of the membrane block and the
    accumulator (consulted only where the block is written back, at the points ≡ 7 mod 8); between points `PhiS`;
    nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay3 (iblk0 V c 4 t) (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay3 (iblk0 V c 4 t) (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## Where the output window is idle -/

/-- Away from the last point of a grid row the configuration calls the output window idle: the body stores nothing, -/
theorem idleAt0_5 : ∀ t : Fin cfg0.N, ¬cond0_1 (grid0.coords t) → cfg0.idle 5 (grid0.coords t) = true := by decide +kernel
/-- and the pipeline does not write its block back. -/
theorem noFlush0_5 : ∀ t : Fin cfg0.N, ¬cond0_1 (grid0.coords t) → (cfg0.win 5).flush t = false := by decide +kernel
/-- At the last point of a grid row it is live. -/
theorem liveAt0_5 : ∀ t : Fin cfg0.N, cond0_1 (grid0.coords t) → cfg0.idle 5 (grid0.coords t) = false := by decide +kernel

/-! ## The body obligation -/

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4000000 in
/-- The body at any point. The input buffers hold their blocks; `t % 8` says which of the three runs applies; the
    invariant hands the body the scratch at what the point before left (at anything before the first point) and takes it
    back at this point's accumulator; where the output window is idle its buffer comes back as it was handed over. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from rfl, after0_0,
    show (dat0 V c).leavesExact 1 t = owns (c : Thread nD τ) (st0_1 t) fullShare ((dat0 V c).after 1 t) from rfl, after0_1,
    show (dat0 V c).leavesExact 2 t = owns (c : Thread nD τ) (st0_2 t) fullShare ((dat0 V c).after 2 t) from rfl, after0_2,
    show (dat0 V c).leavesExact 3 t = owns (c : Thread nD τ) (st0_3 t) fullShare ((dat0 V c).after 3 t) from rfl, after0_3,
    show (dat0 V c).leavesExact 4 t = owns (c : Thread nD τ) (st0_4 t) fullShare ((dat0 V c).after 4 t) from rfl, after0_4]
  have hN : t.val < 32 := lt_of_lt_of_eq t.isLt (show cfg0.N = 32 from N_0)
  by_cases h0 : t.val % 8 = 0
  · have h1 : ¬t.val % 8 = 7 := by omega
    rw [Dat.leavesExact_idle (dat0 V c) 5 t (idleAt0_5 t (fun h => h1 ((hcond0_1 t).mp h))) (noFlush0_5 t (fun h => h1 ((hcond0_1 t).mp h)))]
    rw [accAt_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_first c Set.univ (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_first c Set.univ (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) ((dat0 V c).before 5 t d5) _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    rw [accAt_next V c t h0]
    rw [PhiS_castSucc V c t, PhiS_pos V c _ _ hz]
    by_cases h1 : t.val % 8 = 7
    · rw [show (dat0 V c).leavesExact 5 t = owns (c : Thread nD τ) (st0_5 t) fullShare ((dat0 V c).after 5 t) from by
        unfold Dat.leavesExact; rw [liveAt0_5 t ((hcond0_1 t).mpr h1)], after0_5, accAt_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_last c Set.univ (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (accAt V c (t.val - 1) _) _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idleAt0_5 t (fun h => h1 ((hcond0_1 t).mp h))) (noFlush0_5 t (fun h => h1 ((hcond0_1 t).mp h)))]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (run0_mid c Set.univ (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) ((dat0 V c).before 5 t d5) (accAt V c (t.val - 1) _) _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline library's body obligation for the first call, at every point. -/
theorem body_obligation0 (c : Dev nD) : BodyObligation (dat0 (F := F) V c) (defs₀ (F := F)) Variants.none () Set.univ := fun t => by
  rw [bigSep_W0, bigSep_W0]
  exact sound_body0 V c t

/-! ## The invariant at the call's two ends -/

/-- What the call is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]

/-- After the last point the invariant gives the untouched scoped rest back: the accumulator's contents are forgotten. -/
theorem hout0 (c : Dev nD) : (dat0 V c).Φ (Fin.last cfg0.N) ⊢ (Pipeline.ΦA spec0 c : sProp 𝕄) := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, HR⟩, Hg⟩
  isplitl [HS HR]
  · isplitl [HS]; · iexists _; iexact HS
    iexact HR
  iexact Hg

end

end Cert.KernelIdeal.Hand

end
-- ==== Proof.KI.R1Body.lean ====
/-
  The second pallas_call of the kernel's program: at grid point (i, j) it forms two rank-one blocks,
  dw1[i-block, j-block] = t1col[i-block] ⊗ s[j-block] and dw2[i-block, j-block] = t2col[i-block] ⊗ s[j-block],
  each a column of 1024 entries broadcast along the lanes times a row of 2048 entries broadcast along the rows.
  This module says, at any float instance and for any contents `V` of the core's arrays when the call is entered:
  what each window's block is, what the body leaves in the two output staging buffers as a function of its three input
  blocks, and that the body, run by the pipeline at any point, does leave exactly that (the body obligation).
  Nothing is carried from point to point: the call's invariant is the scoped buffers it does not stage and the
  generator register, untouched.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Block `t` of window `w` of the second call, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The column block of t1 is in its staging buffer at every point, fetched there or not: the block index moves only
    when the pipeline fetches, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the column block of t2. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the row block of the spikes. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store takes a whole staging buffer -/

abbrev rCol : Rect S1024x1 := Rect.unit (s := S1024x1) ![0, 0] S1024x1.size inb_S1024x1_S1024x1_0_0
abbrev rRow : Rect S1x2048 := Rect.unit (s := S1x2048) ![0, 0] S1x2048.size inb_S1x2048_S1x2048_0_0
abbrev rBlk : Rect S1024x2048 := Rect.unit (s := S1024x2048) ![0, 0] S1024x2048.size inb_S1024x2048_S1024x2048_0_0

/-! ## What the body leaves in the two output buffers -/

/-- The dw1 block after the body: its one store, the product of the broadcast t1 column and the broadcast spike row. -/
def out1_3 (tc : Vec F S1024x1 .f32) (sr : Vec F S1x2048 .f32) : Vec F S1024x2048 .f32 :=
  View.canon [⟨rBlk, k1_pay2 (View.ld tc rCol) (View.ld sr rRow)⟩]
/-- The dw2 block after the body: the same with the t2 column. -/
def out1_4 (tc : Vec F S1024x1 .f32) (sr : Vec F S1x2048 .f32) : Vec F S1024x2048 .f32 :=
  View.canon [⟨rBlk, k1_pay3 (View.ld tc rCol) (View.ld sr rRow)⟩]

/-- One store of the whole block covers the block. -/
theorem cover1_blk (p0 : Vec F S1024x2048 .f32) (y : S1024x2048.Idx) :
    ∃ pc ∈ ([⟨rBlk, p0⟩] : List (View.Piece (Elt F) S1024x2048 .f32)), y ∈ pc.1.set :=
  View.cover_of_tiled [⟨rBlk, p0⟩] S1024x2048.size (by rfl) y

/-! ## The body's run -/

set_option maxHeartbeats 2000000 in
/-- On whole staging memrefs — the three inputs at contents `tc1`, `tc2`, `sr`, the two outputs at anything — the body
    runs to its end leaving the inputs as they were and the outputs at the two rank-one blocks. -/
theorem sound_kernel1 (c : Dev nD) (E : Set ℕ) (i : grid1.Coords)
    (arg2 : Memref sig .tc .vmem S1024x1 .f32) (harg2 : arg2.IsWhole) (arg3 : Memref sig .tc .vmem S1024x1 .f32) (harg3 : arg3.IsWhole)
    (arg4 : Memref sig .tc .vmem S1x2048 .f32) (harg4 : arg4.IsWhole)
    (arg5 : Memref sig .tc .vmem S1024x2048 .f32) (harg5 : arg5.IsWhole) (arg6 : Memref sig .tc .vmem S1024x2048 .f32) (harg6 : arg6.IsWhole)
    (tc1 tc2 : Vec F S1024x1 .f32) (sr : Vec F S1x2048 .f32) (K : PUnit → sProp 𝕄) :
    iprop(owns (c : Thread nD τ) arg2 fullShare tc1 ∗ owns (c : Thread nD τ) arg3 fullShare tc2 ∗ owns (c : Thread nD τ) arg4 fullShare sr
        ∗ (∃ d, owns (c : Thread nD τ) arg5 fullShare d) ∗ (∃ d, owns (c : Thread nD τ) arg6 fullShare d)
        ∗ (iprop(owns (c : Thread nD τ) arg2 fullShare tc1 ∗ owns (c : Thread nD τ) arg3 fullShare tc2 ∗ owns (c : Thread nD τ) arg4 fullShare sr
            ∗ owns (c : Thread nD τ) arg5 fullShare (out1_3 tc1 sr) ∗ owns (c : Thread nD τ) arg6 fullShare (out1_4 tc2 sr)) -∗ K ⟨⟩))
      ⊢ wp frame (wpE (defs₀ (F := F)) Variants.none c none) E (cc1__kernel_b i arg2 harg2 arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_blk _)
  iexists _; isplitr
  swap; · iexact H4
  ipureintro
  exact View.read_writes_eq_canon _ _ _ (cover1_blk _)

/-! ## The call's proof data -/

/-- What the pipeline library is told about the second call on core `c`: the arrays as the call finds them; after the
    body at point `t` every input buffer at its block and the two output buffers at the rank-one blocks of the input
    blocks; between points only the untouched scoped rest and the generator register; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 2 t)
    | ⟨4, _⟩ => out1_4 (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 2 t) := by dsimp only [dat1]
theorem after1_4 (c : Dev nD) (t : Fin cfg1.N) : (dat1 V c).after 4 t = out1_4 (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- At any point the input buffers hold their blocks, so the run applies; the invariant and what the core owes pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for the second call, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
/-
  The kernel's whole program as the pipeline library's list of segments — the first pallas_call, the ten host
  operations (the two decayed traces and their reshapes into columns), the second pallas_call — launched once and run
  to the end, at any float instance. Between two segments the core holds every unscoped buffer at named contents:
  at launch the memory itself; after the first call the same with the spike row at what the call's write-backs left;
  after the host operations their results on top; after the second call the two update matrices at what its
  write-backs left. The run's conclusion names every unscoped buffer's final contents; the frame (the seven
  arguments end as launched) is read off it here, the three results in the value modules.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import proofs.«178683_j27358941675618_1_alg».proof.Proof.KI.R0Body
import proofs.«178683_j27358941675618_1_alg».proof.Proof.KI.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => m (c, b)
/-- The same read at the TensorCore's references: what the first call's proof data take. -/
abbrev V0 : (c : Dev nD) → (b : Ref sig .tc) → Buf (Elt F) ((c : Thread nD τ).loc b) := fun c b => W0 m c b

/-- After the first call: its arrays at what the pipeline leaves (the inputs as entered, the spike row's write-backs
    folded), every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the ten host operations (the second call's entry). -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the second call: its arrays at what the pipeline leaves (the two columns and the spike row as entered, the two
    matrices' write-backs folded), every other buffer as it was. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched

No host operation writes an argument; the first call reads five of them through input windows (an input's array ends
as it was entered) and bypasses the two traces; the second call touches none. -/

/-- `main_arg0` ends as launched. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg0) := (W1_arr m c 0).trans (((dat0 (V0 m) c).arrAt_in 0 rfl _).trans (A_eq0 (V0 m) c 0))
    _ = m ((c : Thread nD τ).loc main_arg0) := rfl
/-- `main_arg1` ends as launched. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg1) := (W1_arr m c 1).trans (((dat0 (V0 m) c).arrAt_in 1 rfl _).trans (A_eq0 (V0 m) c 1))
    _ = m ((c : Thread nD τ).loc main_arg1) := rfl
/-- `main_arg2` ends as launched. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg2) := (W1_arr m c 4).trans (((dat0 (V0 m) c).arrAt_in 4 rfl _).trans (A_eq0 (V0 m) c 4))
    _ = m ((c : Thread nD τ).loc main_arg2) := rfl
/-- `main_arg3` ends as launched. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg3) := W1_of_ne m c main_arg3 (by decide)
    _ = m ((c : Thread nD τ).loc main_arg3) := rfl
/-- `main_arg4` ends as launched. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := StableHlo.after_of_forall_not_mem (b := Proc.devRef .tc main_arg4) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg4) := W1_of_ne m c main_arg4 (by decide)
    _ = m ((c : Thread nD τ).loc main_arg4) := rfl
/-- `main_arg5` ends as launched. -/
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := StableHlo.after_of_forall_not_mem (b := Proc.devRef .tc main_arg5) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg5) := (W1_arr m c 2).trans (((dat0 (V0 m) c).arrAt_in 2 rfl _).trans (A_eq0 (V0 m) c 2))
    _ = m ((c : Thread nD τ).loc main_arg5) := rfl
/-- `main_arg6` ends as launched. -/
theorem W3_main_arg6 (c : Dev nD) : W3 m c (Proc.devRef .tc main_arg6) = m ((c : Thread nD τ).loc main_arg6) :=
  calc W3 m c (Proc.devRef .tc main_arg6)
    _ = W2 m c (Proc.devRef .tc main_arg6) := W3_of_ne m c main_arg6 (by decide)
    _ = W1 m c (Proc.devRef .tc main_arg6) := StableHlo.after_of_forall_not_mem (b := Proc.devRef .tc main_arg6) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide)))
    _ = W0 m c (Proc.devRef .tc main_arg6) := (W1_arr m c 3).trans (((dat0 (V0 m) c).arrAt_in 3 rfl _).trans (A_eq0 (V0 m) c 3))
    _ = m ((c : Thread nD τ).loc main_arg6) := rfl

/-! ## The proof data family and the thread state -/

/-- Neither call has a prefetched table. -/
abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- The host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes: every unscoped buffer at the final contents, the generator
    register at some state. -/
abbrev Tₙ (c : Dev nD) : sProp 𝕄 := iprop(StableHlo.held (c : Thread nD τ) (Pipeline.ucRefs τ sig) (W3 m c) ∗ ∃ r, prngReg c r)

/-! ## The two calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and in every final state each unscoped buffer of each core holds its contents at the last
    boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME, at any float instance: the program runs to its end and the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Hand

end
-- ==== Proof.KI.HostVals.lean ====
/-
  What the ten host operations between the two calls leave, read back: the two decayed traces trace · 0.99 + input, each
  reshaped from a row into a column, over the arguments as launched (the first call changes no argument); and the spike
  row, which they do not touch, still at what the first call left.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import proofs.«178683_j27358941675618_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments after the first call -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  (W1_arr m c 1).trans (((dat0 (V0 m) c).arrAt_in 1 rfl _).trans (A_eq0 (V0 m) c 1))
theorem W1_main_arg3 (c : Dev nD) : W1 m c (Proc.devRef .tc main_arg3) = m ((c : Thread nD τ).loc main_arg3) :=
  W1_of_ne m c main_arg3 (by decide)
theorem W1_main_arg4 (c : Dev nD) : W1 m c (Proc.devRef .tc main_arg4) = m ((c : Thread nD τ).loc main_arg4) :=
  W1_of_ne m c main_arg4 (by decide)

/-! ## The second call's three operands -/

/-- Its first column operand: trace1 · 0.99 + x, as a column. -/
theorem V2_main_v7 (c : Dev nD) :
    V2 m c main_v7 = shapeCast S8192x1 (addf (mulf (m ((c : Thread nD τ).loc main_arg3)) (broadcastInDim S1x8192 ![] bcast_S_S1x8192 (constant (F := F) S_ .f32 0x3F7D70A4#32))) (m ((c : Thread nD τ).loc main_arg0))) shapeCasts_S1x8192_S8192x1 := by
  show StableHlo.after hostOps1 (W1 m c) (Proc.devRef .tc main_v7) = _
  after_results
  rw [W1_main_arg3, W1_main_arg0]
  rfl

/-- Its second column operand: trace2 · 0.99 + x1, as a column. -/
theorem V2_main_v8 (c : Dev nD) :
    V2 m c main_v8 = shapeCast S8192x1 (addf (mulf (m ((c : Thread nD τ).loc main_arg4)) (broadcastInDim S1x8192 ![] bcast_S_S1x8192 (constant (F := F) S_ .f32 0x3F7D70A4#32))) (m ((c : Thread nD τ).loc main_arg1))) shapeCasts_S1x8192_S8192x1 := by
  show StableHlo.after hostOps1 (W1 m c) (Proc.devRef .tc main_v8) = _
  after_results
  rw [W1_main_arg4, W1_main_arg1]
  rfl

/-- Its row operand: the spike row as the first call left it. -/
theorem V2_main_v0 (c : Dev nD) : V2 m c main_v0 = (dat0 (V0 m) c).arrAt 5 cfg0.N :=
  (StableHlo.after_of_forall_not_mem (b := Proc.devRef .tc main_v0) _ _ (List.forall_iff_forall_mem.mp (by
          simp only [hostOps1, List.Forall, StableHlo.nullary_writes, StableHlo.unary_writes, StableHlo.binary_writes, StableHlo.reshape_writes, Finset.mem_singleton]
          repeat' apply And.intro
          all_goals exact StableHlo.devRef_ne_of_ne (by decide))) : W2 m c (Proc.devRef .tc main_v0) = W1 m c (Proc.devRef .tc main_v0)).trans (W1_arr m c 5)

end Cert.KernelIdeal.Hand

end
-- ==== Proof.RefRead.lean ====
/-
  The reference side of the value claim: the reference program's run, read one operation at a time.
-/
import proofs.«178683_j27358941675618_1_alg».proof.Proof.Gen.ReferenceIdeal.Run
import proofs.«178683_j27358941675618_1_alg».proof.Proof.Gen.ReferenceIdeal.Read
-- ==== Proof.KI.ValS.lean ====
/-
  THE SPIKE ROW. What the first call's write-backs leave in its output array is, index by index, the reference's own
  expression for the spikes: (mem + (x · w1 + x1 · w2) > 1/2) as 0 or 1.

  The call walks a grid of 4 rows of 8 points; point t = 8 j + k works on columns 2048 j … 2048 j + 2047 and on the
  contracted indices 1024 k … 1024 k + 1023. Along a grid row the scratch is cleared at k = 0 and at every k gains, at
  lane q, the two block products Σ_{r < 1024} x[1024 k + r] · w1[1024 k + r, 2048 j + q] and the same for x1, w2; so
  after k = 7 it holds, at lane q, the eight runs of each product added up, which is each whole sum over 8192 terms
  regrouped into 8 runs of 1024 with the two sums interleaved — equal by commutativity and associativity of + on the
  extended reals, with no finiteness needed. The block written back at k = 7 compares mem + that with 1/2 and converts
  the bit through a 32-bit word, which is the bit converted directly. The four write-backs tile the row.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import proofs.«178683_j27358941675618_1_alg».proof.Proof.KI.R0Body
import proofs.«178683_j27358941675618_1_alg».proof.Proof.RefRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.KernelVsHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

namespace Spike

open Idealize.ShloMosaic.ValueIdx

/-! ## The body's arithmetic at a lane -/

/-- Where the block product reads its operands: the left operand's row is the result's row, -/
theorem mm_lhs_0 (i : S1x2048.Idx) (q : dot_S1x1024_S1024x2048_S1x2048_1_0_0_1_n_n.contr.Idx) :
    (dot_S1x1024_S1024x2048_S1x2048_1_0_0_1_n_n.lhsIdx i q 0).val = (i 0).val := by
  unfold DotDims.lhsIdx
  rw [dif_neg (show ¬(0 : Fin S1x1024.rank) ∈ dot_S1x1024_S1024x2048_S1x2048_1_0_0_1_n_n.lhsBatch by decide), dif_pos (show (0 : Fin S1x1024.rank) ∈ dot_S1x1024_S1024x2048_S1x2048_1_0_0_1_n_n.lhsNonContracting by decide)]
  rfl
/-- its column the contracted index; -/
theorem mm_lhs_1 (i : S1x2048.Idx) (q : dot_S1x1024_S1024x2048_S1x2048_1_0_0_1_n_n.contr.Idx) :
    (dot_S1x1024_S1024x2048_S1x2048_1_0_0_1_n_n.lhsIdx i q 1).val = (q ⟨0, by decide⟩).val :=
  dot_S1x1024_S1024x2048_S1x2048_1_0_0_1_n_n.lhsIdx_val_of_single rfl i q
/-- the right operand's row is the contracted index, -/
theorem mm_rhs_0 (i : S1x2048.Idx) (q : dot_S1x1024_S1024x2048_S1x2048_1_0_0_1_n_n.contr.Idx) :
    (dot_S1x1024_S1024x2048_S1x2048_1_0_0_1_n_n.rhsIdx i q 0).val = (q ⟨0, by decide⟩).val :=
  dot_S1x1024_S1024x2048_S1x2048_1_0_0_1_n_n.rhsIdx_val_of_single rfl i q
/-- its column the result's column. -/
theorem mm_rhs_1 (i : S1x2048.Idx) (q : dot_S1x1024_S1024x2048_S1x2048_1_0_0_1_n_n.contr.Idx) :
    (dot_S1x1024_S1024x2048_S1x2048_1_0_0_1_n_n.rhsIdx i q 1).val = (i 1).val := by
  unfold DotDims.rhsIdx
  rw [dif_neg (show ¬(1 : Fin S1024x2048.rank) ∈ dot_S1x1024_S1024x2048_S1x2048_1_0_0_1_n_n.rhsBatch by decide), dif_pos (show (1 : Fin S1024x2048.rank) ∈ dot_S1x1024_S1024x2048_S1x2048_1_0_0_1_n_n.rhsNonContracting by decide)]
  rfl

/-- A row of 1024 times a 1024 × 2048 block, accumulated into zero, at lane q: the sum over the 1024 contracted indices. -/
theorem mm_at {φ₁ φ₂ : FTy} (l : FVec Ideal S1x1024 φ₁) (r : FVec Ideal S1024x2048 φ₂) (p : Fin 1) (q : Fin 2048) :
    matmul dot_S1x1024_S1024x2048_S1x2048_1_0_0_1_n_n none l r (constant (F := Ideal) S1x2048 .f32 0x00000000#32) (ix2 p q)
      = ∑ k : Fin 1024, l (ix2 p k) * r (ix2 k q) := by
  simp only [matmul]
  rw [Ideal.matmul_constant_zero_apply, ← Equiv.sum_comp (ValueIdx.contrEquiv1 dot_S1x1024_S1024x2048_S1x2048_1_0_0_1_n_n 1024 rfl rfl).symm]
  refine Finset.sum_congr rfl fun k _ => ?_
  have hk := ValueIdx.contrEquiv1_symm_val dot_S1x1024_S1024x2048_S1x2048_1_0_0_1_n_n 1024 rfl rfl k
  have el : dot_S1x1024_S1024x2048_S1x2048_1_0_0_1_n_n.lhsIdx (ix2 p q) ((ValueIdx.contrEquiv1 dot_S1x1024_S1024x2048_S1x2048_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S1x1024_S1024x2048_S1x2048_1_0_0_1_n_n.rhsIdx (ix2 p q) ((ValueIdx.contrEquiv1 dot_S1x1024_S1024x2048_S1x2048_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-- The row the scratch is cleared to is zero at every lane. -/
theorem pay1_at (i : S1x2048.Idx) : (k0_pay1 (F := Ideal)) i = 0 := by
  unfold k0_pay1
  rw [shapeCast_self]
  show Ideal.ofBits .f32 0x00000000#32 = 0
  exact Ideal.ofBits_zero_f32

/-- What one point adds at lane q: its block of x against its block of w1, plus its block of x1 against its block of w2. -/
def blockSum (x0 x1 : Vec Ideal S1x1024 .f32) (w0 w1 : Vec Ideal S1024x2048 .f32) (p : Fin 1) (q : Fin 2048) : EReal :=
  (∑ k : Fin 1024, x0 (ix2 p k) * w0 (ix2 k q)) + ∑ k : Fin 1024, x1 (ix2 p k) * w1 (ix2 k q)

/-- The accumulating step at lane q: what the scratch held there plus the point's two block products (the narrowing of
    the operands before the products is the identity on the extended reals). -/
theorem pay2_at (x0 x1 : Vec Ideal S1x1024 .f32) (w0 w1 : Vec Ideal S1024x2048 .f32) (acc : Vec Ideal S1x2048 .f32) (p : Fin 1) (q : Fin 2048) :
    k0_pay2 x0 x1 w0 w1 acc (ix2 p q) = acc (ix2 p q) + blockSum x0 x1 w0 w1 p q := by
  unfold k0_pay2 blockSum
  rw [shapeCast_self, addf_apply, addf_apply, mm_at, mm_at]
  rfl

/-- The spike block: the condition widened to a word and converted signed is the condition converted unsigned. -/
theorem pay3_eq (m a : Vec Ideal S1x2048 .f32) :
    k0_pay3 m a = uitofp .f32 (cmpf .ogt (addf m a) (broadcast S1x2048 (Scalar.ofBits (F := Ideal) .f32 0x3F000000#32))) := by
  unfold k0_pay3
  exact sitofp_extui_eq_uitofp _ _

/-- The same at a lane. -/
theorem pay3_at (m a : Vec Ideal S1x2048 .f32) (y : S1x2048.Idx) :
    k0_pay3 m a y = FloatOps.uitofp .f32 (FloatOps.cmpf .ogt (FloatOps.addf (m y) (a y)) (FloatOps.ofBits (F := Ideal) .f32 0x3F000000#32)) := by
  rw [pay3_eq]; rfl

/-! ## Regrouping a long sum -/

/-- A sum of m · n terms is the sum of its m consecutive runs of n terms. -/
theorem sum_runs {M : Type*} [AddCommMonoid M] (m n : ℕ) (f : Fin (m * n) → M) :
    ∑ K, f K = ∑ s : Fin m, ∑ k : Fin n, f (finProdFinEquiv (s, k)) :=
  (Equiv.sum_comp finProdFinEquiv f).symm.trans (Fintype.sum_prod_type _)

/-- A sum of 8192 terms as 8 runs of 1024: term K = 1024 s + k. -/
theorem sum_runs_8192 {M : Type*} [AddCommMonoid M] (f : Fin 8192 → M) :
    ∑ K, f K = ∑ s : Fin 8, ∑ k : Fin 1024, f ⟨k.val + 1024 * s.val, by have := s.isLt; have := k.isLt; omega⟩ :=
  sum_runs 8 1024 f

/-! ## The windows' blocks as parts of the arrays -/

section
variable (V : (c : Dev nD) → (b : Ref sig .tc) → Buf (Elt F) ((c : Thread nD τ).loc b))

/-- The printed index maps over the grid's 32 points: at point t the blocks of x and x1 are block t % 8 along the row,
    those of w1 and w2 block (t % 8, t / 8), those of mem and of the spikes block t / 8 along the row. -/
theorem grid_facts : ∀ t : Fin cfg0.N,
    win0_0.index t (0 : Fin 2) = 0 ∧ win0_0.index t (1 : Fin 2) = t.val % 8
    ∧ win0_1.index t (0 : Fin 2) = 0 ∧ win0_1.index t (1 : Fin 2) = t.val % 8
    ∧ win0_2.index t (0 : Fin 2) = t.val % 8 ∧ win0_2.index t (1 : Fin 2) = t.val / 8
    ∧ win0_3.index t (0 : Fin 2) = t.val % 8 ∧ win0_3.index t (1 : Fin 2) = t.val / 8
    ∧ win0_4.index t (0 : Fin 2) = 0 ∧ win0_4.index t (1 : Fin 2) = t.val / 8
    ∧ win0_5.index t (0 : Fin 2) = 0 ∧ win0_5.index t (1 : Fin 2) = t.val / 8 :=
  (by decide +kernel : ∀ t : Fin grid0.N, _)

/-- Entry r of x's block at point t is entry 1024 (t % 8) + r of x. -/
theorem xblk_at (c : Dev nD) (t : Fin cfg0.N) (x : S1x1024.Idx) (K : S1x8192.Idx)
    (h0 : (K 0).val = (x 0).val) (h1 : (K 1).val = 1024 * (t.val % 8) + (x 1).val) :
    (iblk0 V c 0 t : Vec F S1x1024 .f32) x = (V c main_arg0 : S1x8192.Idx → Elt F .f32) K := by
  obtain ⟨e0, e1, -⟩ := grid_facts t
  unfold iblk0
  rw [View.read_apply]
  show V c main_arg0 _ = V c main_arg0 _
  congr 1
  funext a
  apply Fin.ext
  match a with
  | ⟨0, _⟩ => show win0_0.index t (0 : Fin 2) * 1 + 1 * (x 0).val = (K 0).val; rw [e0, h0]; omega
  | ⟨1, _⟩ => show win0_0.index t (1 : Fin 2) * 1024 + 1 * (x 1).val = (K 1).val; rw [e1, h1]; omega

/-- The same for x1. -/
theorem x1blk_at (c : Dev nD) (t : Fin cfg0.N) (x : S1x1024.Idx) (K : S1x8192.Idx)
    (h0 : (K 0).val = (x 0).val) (h1 : (K 1).val = 1024 * (t.val % 8) + (x 1).val) :
    (iblk0 V c 1 t : Vec F S1x1024 .f32) x = (V c main_arg1 : S1x8192.Idx → Elt F .f32) K := by
  obtain ⟨-, -, e0, e1, -⟩ := grid_facts t
  unfold iblk0
  rw [View.read_apply]
  show V c main_arg1 _ = V c main_arg1 _
  congr 1
  funext a
  apply Fin.ext
  match a with
  | ⟨0, _⟩ => show win0_1.index t (0 : Fin 2) * 1 + 1 * (x 0).val = (K 0).val; rw [e0, h0]; omega
  | ⟨1, _⟩ => show win0_1.index t (1 : Fin 2) * 1024 + 1 * (x 1).val = (K 1).val; rw [e1, h1]; omega

/-- Entry (r, q) of w1's block at point t is entry (1024 (t % 8) + r, 2048 (t / 8) + q) of w1. -/
theorem w1blk_at (c : Dev nD) (t : Fin cfg0.N) (x : S1024x2048.Idx) (K : S8192x8192.Idx)
    (h0 : (K 0).val = 1024 * (t.val % 8) + (x 0).val) (h1 : (K 1).val = 2048 * (t.val / 8) + (x 1).val) :
    (iblk0 V c 2 t : Vec F S1024x2048 .f32) x = (V c main_arg5 : S8192x8192.Idx → Elt F .f32) K := by
  obtain ⟨-, -, -, -, e0, e1, -⟩ := grid_facts t
  unfold iblk0
  rw [View.read_apply]
  show V c main_arg5 _ = V c main_arg5 _
  congr 1
  funext a
  apply Fin.ext
  match a with
  | ⟨0, _⟩ => show win0_2.index t (0 : Fin 2) * 1024 + 1 * (x 0).val = (K 0).val; rw [e0, h0]; omega
  | ⟨1, _⟩ => show win0_2.index t (1 : Fin 2) * 2048 + 1 * (x 1).val = (K 1).val; rw [e1, h1]; omega

/-- The same for w2. -/
theorem w2blk_at (c : Dev nD) (t : Fin cfg0.N) (x : S1024x2048.Idx) (K : S8192x8192.Idx)
    (h0 : (K 0).val = 1024 * (t.val % 8) + (x 0).val) (h1 : (K 1).val = 2048 * (t.val / 8) + (x 1).val) :
    (iblk0 V c 3 t : Vec F S1024x2048 .f32) x = (V c main_arg6 : S8192x8192.Idx → Elt F .f32) K := by
  obtain ⟨-, -, -, -, -, -, e0, e1, -⟩ := grid_facts t
  unfold iblk0
  rw [View.read_apply]
  show V c main_arg6 _ = V c main_arg6 _
  congr 1
  funext a
  apply Fin.ext
  match a with
  | ⟨0, _⟩ => show win0_3.index t (0 : Fin 2) * 1024 + 1 * (x 0).val = (K 0).val; rw [e0, h0]; omega
  | ⟨1, _⟩ => show win0_3.index t (1 : Fin 2) * 2048 + 1 * (x 1).val = (K 1).val; rw [e1, h1]; omega

/-- Lane q of mem's block at point t is entry 2048 (t / 8) + q of mem. -/
theorem memblk_at (c : Dev nD) (t : Fin cfg0.N) (x : S1x2048.Idx) (K : S1x8192.Idx)
    (h0 : (K 0).val = (x 0).val) (h1 : (K 1).val = 2048 * (t.val / 8) + (x 1).val) :
    (iblk0 V c 4 t : Vec F S1x2048 .f32) x = (V c main_arg2 : S1x8192.Idx → Elt F .f32) K := by
  obtain ⟨-, -, -, -, -, -, -, -, e0, e1, -⟩ := grid_facts t
  unfold iblk0
  rw [View.read_apply]
  show V c main_arg2 _ = V c main_arg2 _
  congr 1
  funext a
  apply Fin.ext
  match a with
  | ⟨0, _⟩ => show win0_4.index t (0 : Fin 2) * 1 + 1 * (x 0).val = (K 0).val; rw [e0, h0]; omega
  | ⟨1, _⟩ => show win0_4.index t (1 : Fin 2) * 2048 + 1 * (x 1).val = (K 1).val; rw [e1, h1]; omega

end

/-! ## The accumulator along a grid row -/

section
variable (V : (c : Dev nD) → (b : Ref sig .tc) → Buf (Elt Ideal) ((c : Thread nD τ).loc b))

/-- What the body at point t adds to lane q of the scratch: the two products of its blocks there. -/
def addend (c : Dev nD) (t : Fin cfg0.N) (p : Fin 1) (q : Fin 2048) : EReal :=
  blockSum (iblk0 V c 0 t) (iblk0 V c 1 t) (iblk0 V c 2 t) (iblk0 V c 3 t) p q

/-- The same named by a natural number, zero past the grid. -/
def addN (c : Dev nD) (n : ℕ) (p : Fin 1) (q : Fin 2048) : EReal :=
  if h : n < cfg0.N then addend V c ⟨n, h⟩ p q else 0

/-- One point's step at lane q. -/
theorem acc_step (c : Dev nD) (t : Fin cfg0.N) (acc : Vec Ideal S1x2048 .f32) (p : Fin 1) (q : Fin 2048) :
    k0_pay2 (iblk0 V c 0 t) (iblk0 V c 1 t) (iblk0 V c 2 t) (iblk0 V c 3 t) acc (ix2 p q) = acc (ix2 p q) + addend V c t p q :=
  pay2_at (iblk0 V c 0 t) (iblk0 V c 1 t) (iblk0 V c 2 t) (iblk0 V c 3 t) acc p q

/-- The accumulator depends on the point's number only. -/
theorem accAt_congr (c : Dev nD) : ∀ (a b : ℕ) (ha : a < cfg0.N) (hb : b < cfg0.N), a = b → accAt V c a ha = accAt V c b hb := by
  rintro a b ha hb rfl; rfl

/-- Along grid row j, after the point with contracted coordinate k the scratch holds at lane q the sum of what the
    points 8 j … 8 j + k added: zero at the row's first point, one more addend at each later one. -/
theorem acc_fold (c : Dev nD) (j : ℕ) : ∀ (k : ℕ) (hk : k < 8) (h : 8 * j + k < cfg0.N) (p : Fin 1) (q : Fin 2048),
    accAt V c (8 * j + k) h (ix2 p q) = ∑ s ∈ Finset.range (k + 1), addN V c (8 * j + s) p q
  | 0, _, h, p, q => by
    refine (congrFun (accAt_first V c ⟨8 * j + 0, h⟩ (by show (8 * j + 0) % 8 = 0; omega)) (ix2 p q)).trans ?_
    rw [acc_step, pay1_at, zero_add, Finset.sum_range_one]
    unfold addN
    rw [dif_pos h]
  | k + 1, hk, h, p, q => by
    refine (congrFun (accAt_next V c ⟨8 * j + (k + 1), h⟩ (by show ¬(8 * j + (k + 1)) % 8 = 0; omega)) (ix2 p q)).trans ?_
    rw [acc_step]
    show accAt V c (8 * j + k) (Nat.lt_of_succ_lt h) (ix2 p q) + _ = _
    rw [acc_fold c j k (by omega) (Nat.lt_of_succ_lt h) p q, Finset.sum_range_succ _ (k + 1)]
    congr 1
    unfold addN
    rw [dif_pos h]

/-- At the last point of a grid row, lane q of the scratch is the reference's two whole dot products at column
    2048 (t / 8) + q: each sum over 8192 contracted indices is its 8 runs of 1024, run s being what point 8 (t / 8) + s
    added from its blocks, and the two sums of runs add up run by run. -/
theorem acc_row (c : Dev nD) (t : Fin cfg0.N) (ht : t.val % 8 = 7) (p : Fin 1) (q : Fin 2048) (i : Cert.ReferenceIdeal.S1x8192.Idx)
    (h0 : (i 0).val = p.val) (h1 : (i 1).val = 2048 * (t.val / 8) + q.val) :
    accAt V c t.val t.isLt (ix2 p q)
      = FloatOps.addf (F := Ideal) (φ := .f32) (Cert.ReferenceIdeal.Read.val_main_v0 (F := Ideal) (V c main_arg0) (V c main_arg5) i)
          (Cert.ReferenceIdeal.Read.val_main_v1 (F := Ideal) (V c main_arg1) (V c main_arg6) i) := by
  have hN : cfg0.N = 32 := N_0
  have htl : t.val < 32 := lt_of_lt_of_eq t.isLt hN
  have hlt : 8 * (t.val / 8) + 7 < cfg0.N := by omega
  rw [accAt_congr V c t.val (8 * (t.val / 8) + 7) t.isLt hlt (by omega), acc_fold V c (t.val / 8) 7 (by omega) hlt p q,
    Finset.sum_range]
  show _ = _ + _
  rw [Cert.ReferenceIdeal.Read.val_main_v0_apply, Cert.ReferenceIdeal.Read.val_main_v1_apply, sum_runs_8192, sum_runs_8192,
    ← Finset.sum_add_distrib]
  refine Finset.sum_congr rfl fun s _ => ?_
  have hs : s.val < 8 := s.isLt
  have hsl : 8 * (t.val / 8) + s.val < cfg0.N := by omega
  unfold addN
  rw [dif_pos hsl]
  unfold addend blockSum
  congr 1
  · refine Finset.sum_congr rfl fun k _ => ?_
    have hk : k.val < 1024 := k.isLt
    congr 1
    · refine xblk_at V c ⟨_, hsl⟩ (ix2 p k) _ ?_ ?_
      · exact h0
      · show k.val + 1024 * s.val = 1024 * ((8 * (t.val / 8) + s.val) % 8) + k.val; omega
    · refine w1blk_at V c ⟨_, hsl⟩ (ix2 k q) _ ?_ ?_
      · show k.val + 1024 * s.val = 1024 * ((8 * (t.val / 8) + s.val) % 8) + k.val; omega
      · show (i 1).val = 2048 * ((8 * (t.val / 8) + s.val) / 8) + q.val; omega
  · refine Finset.sum_congr rfl fun k _ => ?_
    have hk : k.val < 1024 := k.isLt
    congr 1
    · refine x1blk_at V c ⟨_, hsl⟩ (ix2 p k) _ ?_ ?_
      · exact h0
      · show k.val + 1024 * s.val = 1024 * ((8 * (t.val / 8) + s.val) % 8) + k.val; omega
    · refine w2blk_at V c ⟨_, hsl⟩ (ix2 k q) _ ?_ ?_
      · show k.val + 1024 * s.val = 1024 * ((8 * (t.val / 8) + s.val) % 8) + k.val; omega
      · show (i 1).val = 2048 * ((8 * (t.val / 8) + s.val) / 8) + q.val; omega

/-! ## What is written back, and where -/

/-- What the last point of a grid row stores at lane y of its spike block is the reference's spike at column
    2048 (t / 8) + y. -/
theorem spike_at (c : Dev nD) (t : Fin cfg0.N) (ht : t.val % 8 = 7) (y : S1x2048.Idx) (i : Cert.ReferenceIdeal.S1x8192.Idx)
    (h0 : (i 0).val = (y 0).val) (h1 : (i 1).val = 2048 * (t.val / 8) + (y 1).val) :
    k0_pay3 (iblk0 V c 4 t) (accAt V c t.val t.isLt) y
      = Cert.ReferenceIdeal.Read.val_main_v6 (F := Ideal) (V c main_arg0) (V c main_arg1) (V c main_arg2) (V c main_arg5) (V c main_arg6) i := by
  obtain ⟨p, q, rfl⟩ : ∃ (p : Fin 1) (q : Fin 2048), y = ix2 p q := ⟨y 0, y 1, eq_ix2 y⟩
  refine (pay3_at _ _ _).trans ?_
  rw [Cert.ReferenceIdeal.Read.val_main_v6_apply, Cert.ReferenceIdeal.Read.val_main_v5_apply, Cert.ReferenceIdeal.Read.val_main_v3_apply,
    Cert.ReferenceIdeal.Read.val_main_v2_apply, Cert.ReferenceIdeal.Read.val_main_v4_apply, Cert.ReferenceIdeal.Read.val_main_cst_apply]
  rw [acc_row V c t ht p q i h0 h1]
  refine congrArg (FloatOps.uitofp .f32) (congrArg (fun z => FloatOps.cmpf .ogt (FloatOps.addf z _) _) ?_)
  exact memblk_at V c t (ix2 p q) i h0 h1

/-- What a point that writes back writes is its block of the reference's spike row. -/
theorem flushed_eq (c : Dev nD) (t : Fin cfg0.N) (hf : (cfg0.win 5).flush t = true) :
    (dat0 V c).flushed 5 t = ((cfg0.win 5).blk t).view.read (Elt Ideal)
      (Cert.ReferenceIdeal.Read.val_main_v6 (F := Ideal) (V c main_arg0) (V c main_arg1) (V c main_arg2) (V c main_arg5) (V c main_arg6)) := by
  have ht : t.val % 8 = 7 := (flush0_5 t).mp hf
  obtain ⟨-, -, -, -, -, -, -, -, -, -, e0, e1⟩ := grid_facts t
  show (cfg0.win 5).cut (grid0.coords t) ((dat0 V c).after 5 t) = _
  rw [after0_5]
  funext y
  show k0_pay3 (iblk0 V c 4 t) (accAt V c t.val t.isLt) y
    = Cert.ReferenceIdeal.Read.val_main_v6 (F := Ideal) (V c main_arg0) (V c main_arg1) (V c main_arg2) (V c main_arg5) (V c main_arg6) (((cfg0.win 5).blk t).view.emb y)
  refine spike_at V c t ht y _ ?_ ?_
  · show win0_5.index t (0 : Fin 2) * 1 + 1 * (y 0).val = (y 0).val; rw [e0]; omega
  · show win0_5.index t (1 : Fin 2) * 2048 + 1 * (y 1).val = 2048 * (t.val / 8) + (y 1).val; rw [e1]; omega
end

/-- An index of the spike row is in point t's block iff each coordinate is in the block's range on its axis. -/
theorem mem_blk5 (t : Fin cfg0.N) (i : S1x8192.Idx) :
    i ∈ ((cfg0.win 5).blk t).view.set ↔ ∀ a : Fin 2, win0_5.index t a * S1x2048.size a ≤ (i a).val ∧ (i a).val < win0_5.index t a * S1x2048.size a + S1x2048.size a := by
  show i ∈ ((View.whole main_v0).slice (win0_5.rect t)).set ↔ _
  rw [View.set_slice_whole, Rect.mem_set_unit]
  exact Iff.rfl

/-- Column n of the spike row lies in the block written back at the last point of grid row n / 2048. -/
theorem cover5 (i : S1x8192.Idx) : ∃ t : Fin cfg0.N, (cfg0.win 5).flush t = true ∧ i ∈ ((cfg0.win 5).blk t).view.set := by
  have hi0 : (i 0).val < 1 := (i 0).isLt
  have hi1 : (i 1).val < 8192 := (i 1).isLt
  have hN : cfg0.N = 32 := N_0
  have hlt : 8 * ((i 1).val / 2048) + 7 < cfg0.N := by omega
  have e := grid_facts ⟨8 * ((i 1).val / 2048) + 7, hlt⟩
  have e0 : win0_5.index ⟨8 * ((i 1).val / 2048) + 7, hlt⟩ (0 : Fin 2) = 0 := e.2.2.2.2.2.2.2.2.2.2.1
  have e1 : win0_5.index ⟨8 * ((i 1).val / 2048) + 7, hlt⟩ (1 : Fin 2) = (8 * ((i 1).val / 2048) + 7) / 8 := e.2.2.2.2.2.2.2.2.2.2.2
  refine ⟨⟨8 * ((i 1).val / 2048) + 7, hlt⟩, (flush0_5 _).mpr (by show (8 * ((i 1).val / 2048) + 7) % 8 = 7; omega), ?_⟩
  rw [mem_blk5]
  intro a
  match a with
  | ⟨0, _⟩ =>
    show win0_5.index ⟨8 * ((i 1).val / 2048) + 7, hlt⟩ (0 : Fin 2) * 1 ≤ (i 0).val ∧ (i 0).val < win0_5.index ⟨8 * ((i 1).val / 2048) + 7, hlt⟩ (0 : Fin 2) * 1 + 1
    rw [e0]; omega
  | ⟨1, _⟩ =>
    show win0_5.index ⟨8 * ((i 1).val / 2048) + 7, hlt⟩ (1 : Fin 2) * 2048 ≤ (i 1).val ∧ (i 1).val < win0_5.index ⟨8 * ((i 1).val / 2048) + 7, hlt⟩ (1 : Fin 2) * 2048 + 2048
    rw [e1]; omega

end Spike

/-- The spike row after the first call, for any contents `V` of the core's arrays at the call's entry. -/
theorem s_final (V : (c : Dev nD) → (b : Ref sig .tc) → Buf (Elt Ideal) ((c : Thread nD τ).loc b)) (c : Dev nD) :
    (dat0 (F := Ideal) V c).arrAt 5 cfg0.N
      = Cert.ReferenceIdeal.Read.val_main_v6 (F := Ideal) (V c main_arg0) (V c main_arg1) (V c main_arg2) (V c main_arg5) (V c main_arg6) :=
  (dat0 (F := Ideal) V c).arrAt_eq_of_cover 5 _ (fun t hf => Spike.flushed_eq V c t hf) Spike.cover5

end Cert.KernelIdeal.Hand

end
-- ==== Proof.KI.ValDw.lean ====
/-
  THE TWO UPDATE MATRICES. What the second call's write-backs leave in each output array is the rank-one matrix of a
  trace (held as a column) and the spike row, which is what the reference's matrix product over a contracted axis of
  extent one computes.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import proofs.«178683_j27358941675618_1_alg».proof.Proof.KI.R1Body
import proofs.«178683_j27358941675618_1_alg».proof.Proof.RefRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

namespace Dw

/-! ## The reference: a matrix product over a contracted axis of extent one is a rank-one matrix -/

/-- The reference's product of a column and a row, contracted over the axis of extent one, read at entry `(r, q)`:
    the sum over that axis is its one term, the column at `r` times the row at `q`. -/
theorem dot_extent_one_apply (x : FVec Ideal Cert.ReferenceIdeal.S8192x1 .f32) (y : FVec Ideal Cert.ReferenceIdeal.S1x8192 .f32)
    (r q : Fin 8192) :
    Host.dotGeneral (F := Ideal) (φ₁ := .f32) (φ₂ := .f32) Cert.ReferenceIdeal.dot_S8192x1_S1x8192_S8192x8192_1_0_0_1_n_n none x y (ix2 r q)
      = x (ix2 r (0 : Fin 1)) * y (ix2 (0 : Fin 1) q) := by
  simp only [Host.dotGeneral]
  rw [Ideal.dotGeneral_apply, ← Equiv.sum_comp (ValueIdx.contrEquiv1 Cert.ReferenceIdeal.dot_S8192x1_S1x8192_S8192x8192_1_0_0_1_n_n 1 rfl rfl).symm,
    Fin.sum_univ_one]
  have hk := ValueIdx.contrEquiv1_symm_val Cert.ReferenceIdeal.dot_S8192x1_S1x8192_S8192x8192_1_0_0_1_n_n 1 rfl rfl 0
  have el : Cert.ReferenceIdeal.dot_S8192x1_S1x8192_S8192x8192_1_0_0_1_n_n.lhsIdx (ix2 r q)
      ((ValueIdx.contrEquiv1 Cert.ReferenceIdeal.dot_S8192x1_S1x8192_S8192x8192_1_0_0_1_n_n 1 rfl rfl).symm 0) = ix2 r (0 : Fin 1) :=
    funext fun a => Fin.ext (by
      match a with
      | ⟨0, _⟩ => exact Cert.ReferenceIdeal.Read.lhs_main_v14_0 _ _
      | ⟨1, _⟩ => exact (Cert.ReferenceIdeal.Read.lhs_main_v14_1 _ _).trans hk)
  have er : Cert.ReferenceIdeal.dot_S8192x1_S1x8192_S8192x8192_1_0_0_1_n_n.rhsIdx (ix2 r q)
      ((ValueIdx.contrEquiv1 Cert.ReferenceIdeal.dot_S8192x1_S1x8192_S8192x8192_1_0_0_1_n_n 1 rfl rfl).symm 0) = ix2 (0 : Fin 1) q :=
    funext fun a => Fin.ext (by
      match a with
      | ⟨0, _⟩ => exact (Cert.ReferenceIdeal.Read.rhs_main_v14_0 _ _).trans hk
      | ⟨1, _⟩ => exact Cert.ReferenceIdeal.Read.rhs_main_v14_1 _ _)
  rw [el, er]

/-- The rank-one matrix of two rows: its entry `(r, q)` is the first row at `r` times the second at `q`. -/
def outer (t s : FVec Ideal S1x8192 .f32) : FVec Ideal S8192x8192 .f32 :=
  fun i => t (ix2 (0 : Fin 1) (⟨(i 0).val, (i 0).isLt⟩ : Fin 8192)) * s (ix2 (0 : Fin 1) (⟨(i 1).val, (i 1).isLt⟩ : Fin 8192))

/-- The reference's matrix product of the transposed row `t` and the row `s` is their rank-one matrix. -/
theorem ref_eq_outer (t s : FVec Ideal S1x8192 .f32) :
    Host.dotGeneral (F := Ideal) (φ₁ := .f32) (φ₂ := .f32) Cert.ReferenceIdeal.dot_S8192x1_S1x8192_S8192x8192_1_0_0_1_n_n none
        (transpose (α := Ideal .f32) Cert.ReferenceIdeal.S8192x1 [1, 0] t Cert.ReferenceIdeal.Facts₀.transposes_S1x8192_S8192x1_1_0) s
      = outer t s := by
  funext i
  obtain ⟨r, q, rfl⟩ : ∃ (r : Fin 8192) (q : Fin 8192), i = ix2 r q := ⟨i 0, i 1, eq_ix2 i⟩
  rw [dot_extent_one_apply, transpose_ix2_apply]
  rfl

/-! ## The body's block at an entry -/

/-- A `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's product block at entry `(p, q)`: the column at row `p` times the row at lane `q`. -/
theorem pay_apply (tc : FVec Ideal S1024x1 .f32) (sr : FVec Ideal S1x2048 .f32) (p : Fin 1024) (q : Fin 2048) :
    k1_pay2 tc sr (ix2 p q) = tc (ix2 p (0 : Fin 1)) * sr (ix2 (0 : Fin 1) q) := by
  unfold k1_pay2 k1_pay1
  show mulf (broadcastTo S1024x2048 (shapeCast S1024x1 tc shapeCasts_S1024x1_S1024x1) broadcasts_S1024x1_S1024x2048)
      (broadcastTo S1024x2048 (shapeCast S1x2048 sr shapeCasts_S1x2048_S1x2048) broadcasts_S1x2048_S1024x2048) (ix2 p q) = _
  rw [mulf_apply, shapeCast_self, shapeCast_self, broadcastTo_1b_ab_apply, broadcastTo_a1_ab_apply]

/-- The second output's block is the same function of its column and the row. -/
theorem pay3_eq (tc : FVec Ideal S1024x1 .f32) (sr : FVec Ideal S1x2048 .f32) : k1_pay3 (F := Ideal) tc sr = k1_pay2 (F := Ideal) tc sr := rfl

/-! ## The operands' arrays at an index -/

/-- A row reshaped into a column reads, at row `r`, the row at `r`. -/
theorem col_of_row_apply (t : FVec Ideal S1x8192 .f32) (r : Fin 8192) :
    shapeCast S8192x1 t shapeCasts_S1x8192_S8192x1 (ix2 r (0 : Fin 1)) = t (ix2 (0 : Fin 1) r) := by
  refine shapeCast_apply t _ _ _ ?_
  rw [Shape.rowMajor_val_two, Shape.rowMajor_val_two]
  show 0 * 8192 + r.val = r.val * 1 + 0
  omega

/-- The column array at the row of an entry times the row array at its lane is the entry of the rank-one matrix. -/
theorem col_mul_row (A7 : FVec Ideal S8192x1 .f32) (A0 t s : FVec Ideal S1x8192 .f32)
    (h7 : A7 = shapeCast S8192x1 t shapeCasts_S1x8192_S8192x1) (h0 : A0 = s)
    (k7 : S8192x1.Idx) (k0 : S1x8192.Idx) (i : S8192x8192.Idx)
    (e7 : (k7 0).val = (i 0).val) (e0 : (k0 1).val = (i 1).val) : A7 k7 * A0 k0 = outer t s i := by
  subst h7; subst h0
  have hk7 : k7 = ix2 (⟨(i 0).val, (i 0).isLt⟩ : Fin 8192) (0 : Fin 1) :=
    Shape.idx_ext₂ e7 (by have := idx2_lt1 k7; show (k7 1).val = 0; omega)
  have hk0 : k0 = ix2 (0 : Fin 1) (⟨(i 1).val, (i 1).isLt⟩ : Fin 8192) :=
    Shape.idx_ext₂ (by have := idx2_lt0 k0; show (k0 0).val = 0; omega) e0
  rw [hk7, hk0, col_of_row_apply]
  rfl

/-! ## From blocks to the arrays -/

/-- The zero offsets of a whole-buffer rectangle, as the constant function. -/
theorem zero_offsets : (![0, 0] : Fin 2 → ℕ) = fun _ => 0 := funext fun a => by fin_cases a <;> rfl

/-- The printed index maps, decided over the grid: each column window moves with the outputs' row-block index and
    stays at lane-block zero, the row window with their lane-block index at row-block zero, the two outputs
    together, and the outputs' block indices stay in their ranges. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ win1_4.index t (0 : Fin 2) = win1_3.index t (0 : Fin 2) ∧ win1_4.index t (1 : Fin 2) = win1_3.index t (1 : Fin 2)
    ∧ win1_3.index t (0 : Fin 2) ≤ 7 ∧ win1_3.index t (1 : Fin 2) ≤ 3 :=
  (by decide +kernel : ∀ t : Fin grid1.N, _)

/-- Every block of the outputs is some point's. -/
theorem idx_onto : ∀ (q0 : Fin 8) (q1 : Fin 4), ∃ t : Fin cfg1.N, win1_3.index t = ![q0.val, q1.val] :=
  (by decide +kernel : ∀ (q0 : Fin 8) (q1 : Fin 4), ∃ t : Fin grid1.N, win1_3.index t = ![q0.val, q1.val])

section
variable (V : (c : Dev nD) → (b : Ref sig .tc) → Buf (Elt Ideal) ((c : Thread nD τ).loc b)) (c : Dev nD)

/-- What point `t` writes back to dw1 is block `t` of the rank-one matrix of `t1` and `s`. -/
theorem flushed3_eq (t1 s : FVec Ideal S1x8192 .f32)
    (h7 : V c main_v7 = shapeCast S8192x1 t1 shapeCasts_S1x8192_S8192x1) (h0 : V c main_v0 = s) (t : Fin cfg1.N) :
    (dat1 (F := Ideal) V c).flushed 3 t = ((cfg1.win 3).blk t).view.read (Elt Ideal) (outer t1 s) := by
  show (cfg1.win 3).cut (grid1.coords t) ((dat1 V c).after 3 t) = _
  rw [after1_3]
  unfold out1_3
  rw [View.canon_unit_zero zero_offsets]
  simp only [View.ld_unit_zero (S := S1024x1) zero_offsets, View.ld_unit_zero (S := S1x2048) zero_offsets]
  obtain ⟨e0, e1, -, -, e4, e5, -, -, -, -⟩ := idx_facts t
  funext j
  show k1_pay2 (iblk1 V c 0 t) (iblk1 V c 2 t) j = outer t1 s (((cfg1.win 3).blk t).view.emb j)
  obtain ⟨p, q, rfl⟩ : ∃ (p : Fin 1024) (q : Fin 2048), j = ix2 p q := ⟨j 0, j 1, eq_ix2 j⟩
  refine (pay_apply _ _ p q).trans ?_
  refine col_mul_row (V c main_v7) (V c main_v0) t1 s h7 h0 (((cfg1.win 0).blk t).view.emb (ix2 p (0 : Fin 1)))
    (((cfg1.win 2).blk t).view.emb (ix2 (0 : Fin 1) q)) _ ?_ ?_
  · show win1_0.index t (0 : Fin 2) * 1024 + 1 * p.val = win1_3.index t (0 : Fin 2) * 1024 + 1 * p.val
    omega
  · show win1_2.index t (1 : Fin 2) * 2048 + 1 * q.val = win1_3.index t (1 : Fin 2) * 2048 + 1 * q.val
    omega

/-- What point `t` writes back to dw2 is block `t` of the rank-one matrix of `t2` and `s`. -/
theorem flushed4_eq (t2 s : FVec Ideal S1x8192 .f32)
    (h8 : V c main_v8 = shapeCast S8192x1 t2 shapeCasts_S1x8192_S8192x1) (h0 : V c main_v0 = s) (t : Fin cfg1.N) :
    (dat1 (F := Ideal) V c).flushed 4 t = ((cfg1.win 4).blk t).view.read (Elt Ideal) (outer t2 s) := by
  show (cfg1.win 4).cut (grid1.coords t) ((dat1 V c).after 4 t) = _
  rw [after1_4]
  unfold out1_4
  rw [View.canon_unit_zero zero_offsets]
  simp only [View.ld_unit_zero (S := S1024x1) zero_offsets, View.ld_unit_zero (S := S1x2048) zero_offsets]
  obtain ⟨-, -, e2, e3, e4, e5, e6, e7, -, -⟩ := idx_facts t
  funext j
  show k1_pay3 (iblk1 V c 1 t) (iblk1 V c 2 t) j = outer t2 s (((cfg1.win 4).blk t).view.emb j)
  obtain ⟨p, q, rfl⟩ : ∃ (p : Fin 1024) (q : Fin 2048), j = ix2 p q := ⟨j 0, j 1, eq_ix2 j⟩
  rw [pay3_eq]
  refine (pay_apply _ _ p q).trans ?_
  refine col_mul_row (V c main_v8) (V c main_v0) t2 s h8 h0 (((cfg1.win 1).blk t).view.emb (ix2 p (0 : Fin 1)))
    (((cfg1.win 2).blk t).view.emb (ix2 (0 : Fin 1) q)) _ ?_ ?_
  · show win1_1.index t (0 : Fin 2) * 1024 + 1 * p.val = win1_4.index t (0 : Fin 2) * 1024 + 1 * p.val
    omega
  · show win1_2.index t (1 : Fin 2) * 2048 + 1 * q.val = win1_4.index t (1 : Fin 2) * 2048 + 1 * q.val
    omega

end

/-- An entry of dw1 is in point `t`'s block iff each coordinate is in the block's range on its axis. -/
theorem mem_blk3 (t : Fin cfg1.N) (i : S8192x8192.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v9_0).slice (win1_3.rect t)).set ↔ _
  rw [View.set_slice_whole, Rect.mem_set_unit]
  exact Iff.rfl

/-- The same for dw2. -/
theorem mem_blk4 (t : Fin cfg1.N) (i : S8192x8192.Idx) :
    i ∈ ((cfg1.win 4).blk t).view.set ↔ ∀ a : Fin 2, win1_4.index t a * S1024x2048.size a ≤ (i a).val
      ∧ (i a).val < win1_4.index t a * S1024x2048.size a + S1024x2048.size a := by
  show i ∈ ((View.whole main_v9_1).slice (win1_4.rect t)).set ↔ _
  rw [View.set_slice_whole, Rect.mem_set_unit]
  exact Iff.rfl

/-- The 32 blocks tile an 8192 x 8192 array: entry `(r, q)` lies in the block of row-block `r / 1024` and
    lane-block `q / 2048`. -/
theorem tile_arith (i : S8192x8192.Idx) : ∃ t : Fin cfg1.N,
    (win1_3.index t (0 : Fin 2) * 1024 ≤ (i 0).val ∧ (i 0).val < win1_3.index t (0 : Fin 2) * 1024 + 1024)
    ∧ (win1_3.index t (1 : Fin 2) * 2048 ≤ (i 1).val ∧ (i 1).val < win1_3.index t (1 : Fin 2) * 2048 + 2048) := by
  have hi0 : (i 0).val < 8192 := idx2_lt0 i
  have hi1 : (i 1).val < 8192 := idx2_lt1 i
  obtain ⟨t, ht⟩ := idx_onto ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  exact ⟨t, by omega, by omega⟩

/-- Every entry of dw1 is in some point's written-back block. -/
theorem cover3 (i : S8192x8192.Idx) : ∃ t : Fin cfg1.N, (cfg1.win 3).flush t = true ∧ i ∈ ((cfg1.win 3).blk t).view.set := by
  obtain ⟨t, h0, h1⟩ := tile_arith i
  refine ⟨t, flush1_3 t, ?_⟩
  rw [mem_blk3]
  intro a
  match a with
  | ⟨0, _⟩ => exact h0
  | ⟨1, _⟩ => exact h1

/-- Every entry of dw2 is in some point's written-back block. -/
theorem cover4 (i : S8192x8192.Idx) : ∃ t : Fin cfg1.N, (cfg1.win 4).flush t = true ∧ i ∈ ((cfg1.win 4).blk t).view.set := by
  obtain ⟨t, h0, h1⟩ := tile_arith i
  obtain ⟨-, -, -, -, -, -, e6, e7, -, -⟩ := idx_facts t
  refine ⟨t, flush1_4 t, ?_⟩
  rw [mem_blk4]
  intro a
  match a with
  | ⟨0, _⟩ => show win1_4.index t (0 : Fin 2) * 1024 ≤ (i 0).val ∧ (i 0).val < win1_4.index t (0 : Fin 2) * 1024 + 1024; rw [e6]; exact h0
  | ⟨1, _⟩ => show win1_4.index t (1 : Fin 2) * 2048 ≤ (i 1).val ∧ (i 1).val < win1_4.index t (1 : Fin 2) * 2048 + 2048; rw [e7]; exact h1

end Dw

/-- dw1 after the second call, when its first column operand is the row `t1` reshaped and its row operand is `s`. -/
theorem dw1_final (V : (c : Dev nD) → (b : Ref sig .tc) → Buf (Elt Ideal) ((c : Thread nD τ).loc b)) (c : Dev nD)
    (t1 s : FVec Ideal S1x8192 .f32)
    (h7 : V c main_v7 = shapeCast S8192x1 t1 shapeCasts_S1x8192_S8192x1) (h0 : V c main_v0 = s) :
    (dat1 (F := Ideal) V c).arrAt 3 cfg1.N
      = Host.dotGeneral (F := Ideal) (φ₁ := .f32) (φ₂ := .f32) Cert.ReferenceIdeal.dot_S8192x1_S1x8192_S8192x8192_1_0_0_1_n_n none
          (transpose (α := Ideal .f32) Cert.ReferenceIdeal.S8192x1 [1, 0] t1 Cert.ReferenceIdeal.Facts₀.transposes_S1x8192_S8192x1_1_0) s := by
  rw [Dw.ref_eq_outer]
  exact (dat1 (F := Ideal) V c).arrAt_eq_of_cover 3 (Dw.outer t1 s) (fun t _ => Dw.flushed3_eq V c t1 s h7 h0 t) Dw.cover3

/-- dw2 after the second call, likewise with its second column operand. -/
theorem dw2_final (V : (c : Dev nD) → (b : Ref sig .tc) → Buf (Elt Ideal) ((c : Thread nD τ).loc b)) (c : Dev nD)
    (t2 s : FVec Ideal S1x8192 .f32)
    (h8 : V c main_v8 = shapeCast S8192x1 t2 shapeCasts_S1x8192_S8192x1) (h0 : V c main_v0 = s) :
    (dat1 (F := Ideal) V c).arrAt 4 cfg1.N
      = Host.dotGeneral (F := Ideal) (φ₁ := .f32) (φ₂ := .f32) Cert.ReferenceIdeal.dot_S8192x1_S1x8192_S8192x8192_1_0_0_1_n_n none
          (transpose (α := Ideal .f32) Cert.ReferenceIdeal.S8192x1 [1, 0] t2 Cert.ReferenceIdeal.Facts₀.transposes_S1x8192_S8192x1_1_0) s := by
  rw [Dw.ref_eq_outer]
  exact (dat1 (F := Ideal) V c).arrAt_eq_of_cover 4 (Dw.outer t2 s) (fun t _ => Dw.flushed4_eq V c t2 s h8 h0 t) Dw.cover4

end Cert.KernelIdeal.Hand

end
-- ==== Proof.KI.ValueRun.lean ====
/-
  The kernel's program at the exact reals, with its three results named: the spike row, dw1 and dw2 end at the
  reference's own expressions of the arguments as launched — the spike row by the first call's value, the two matrices
  by the second call's value over the host operations' traces and that spike row — and the arguments end unchanged.
-/
import proofs.«178683_j27358941675618_1_alg».proof.Proof.Gen.KernelIdeal.Launch
import proofs.«178683_j27358941675618_1_alg».proof.Proof.Gen.KernelIdeal.Skeleton
import proofs.«178683_j27358941675618_1_alg».proof.Proof.Gen.KernelIdeal.Points
import proofs.«178683_j27358941675618_1_alg».proof.Proof.KI.Run
import proofs.«178683_j27358941675618_1_alg».proof.Proof.KI.HostVals
import proofs.«178683_j27358941675618_1_alg».proof.Proof.KI.ValS
import proofs.«178683_j27358941675618_1_alg».proof.Proof.KI.ValDw
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt Ideal) ℓ) (ρ : Dev nD → PrngReg)

/-- The spike row at the end: the second call only reads it, the host operations do not touch it. -/
theorem W3_main_v0 (c : Dev nD) : W3 m c (Proc.devRef .tc main_v0) = Cert.ReferenceIdeal.Read.val_main_v6 (F := Ideal) (m ((c : Thread nD τ).loc main_arg0)) (m ((c : Thread nD τ).loc main_arg1)) (m ((c : Thread nD τ).loc main_arg2)) (m ((c : Thread nD τ).loc main_arg5)) (m ((c : Thread nD τ).loc main_arg6)) :=
  calc W3 m c (Proc.devRef .tc main_v0)
    _ = V2 m c main_v0 := (W3_arr m c 2).trans (((dat1 (V2 m) c).arrAt_in 2 rfl _).trans (A_eq1 (V2 m) c 2))
    _ = (dat0 (V0 m) c).arrAt 5 cfg0.N := V2_main_v0 m c
    _ = _ := s_final (V0 m) c

/-- dw1 at the end. -/
theorem W3_main_v9_0 (c : Dev nD) : W3 m c (Proc.devRef .tc main_v9_0) = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) :=
  (W3_arr m c 3).trans ((dw1_final (V2 m) c (addf (mulf (m ((c : Thread nD τ).loc main_arg3)) (broadcastInDim S1x8192 ![] bcast_S_S1x8192 (constant (F := Ideal) S_ .f32 0x3F7D70A4#32))) (m ((c : Thread nD τ).loc main_arg0))) (Cert.ReferenceIdeal.Read.val_main_v6 (F := Ideal) (m ((c : Thread nD τ).loc main_arg0)) (m ((c : Thread nD τ).loc main_arg1)) (m ((c : Thread nD τ).loc main_arg2)) (m ((c : Thread nD τ).loc main_arg5)) (m ((c : Thread nD τ).loc main_arg6)))
    (V2_main_v7 m c) ((V2_main_v0 m c).trans (s_final (V0 m) c))).trans rfl)

/-- dw2 at the end. -/
theorem W3_main_v9_1 (c : Dev nD) : W3 m c (Proc.devRef .tc main_v9_1) = Cert.ReferenceIdeal.Read.val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (W3_arr m c 4).trans ((dw2_final (V2 m) c (addf (mulf (m ((c : Thread nD τ).loc main_arg4)) (broadcastInDim S1x8192 ![] bcast_S_S1x8192 (constant (F := Ideal) S_ .f32 0x3F7D70A4#32))) (m ((c : Thread nD τ).loc main_arg1))) (Cert.ReferenceIdeal.Read.val_main_v6 (F := Ideal) (m ((c : Thread nD τ).loc main_arg0)) (m ((c : Thread nD τ).loc main_arg1)) (m ((c : Thread nD τ).loc main_arg2)) (m ((c : Thread nD τ).loc main_arg5)) (m ((c : Thread nD τ).loc main_arg6)))
    (V2_main_v8 m c) ((V2_main_v0 m c).trans (s_final (V0 m) c))).trans rfl)

/-- THE NAMED RUN at the exact reals. -/
theorem run_values : θ_run defs (onTc (τ := τ) (main (F := Ideal))) ⟨m, fun _ => 0, ρ⟩ (fun r => ∀ c : Dev nD,
      r.2.mem ((c.tc : Thread nD τ).loc main_v0) = Cert.ReferenceIdeal.Read.val_main_v6 (F := Ideal) (m ((c : Thread nD τ).loc main_arg0)) (m ((c : Thread nD τ).loc main_arg1)) (m ((c : Thread nD τ).loc main_arg2)) (m ((c : Thread nD τ).loc main_arg5)) (m ((c : Thread nD τ).loc main_arg6))
      ∧ r.2.mem ((c.tc : Thread nD τ).loc main_v9_0) = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))
      ∧ r.2.mem ((c.tc : Thread nD τ).loc main_v9_1) = Cert.ReferenceIdeal.Read.val_main_v16 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v0 (by decide))).trans (W3_main_v0 m c),
     (h c _ (mem_uc main_v9_0 (by decide))).trans (W3_main_v9_0 m c),
     (h c _ (mem_uc main_v9_1 (by decide))).trans (W3_main_v9_1 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Hand

end
-- ==== Proof.lean ====
/-
  The certificate of a spiking layer's update step: a Pallas kernel in two pallas_calls against its jnp reference.

  WHAT IS COMPUTED. From inputs x, x1, mem, trace1, trace2 (rows of 8192) and weights w1, w2 (8192 x 8192):
  the spike row s = [mem + (x · w1 + x1 · w2) > 1/2] as 0 or 1; the decayed traces t1 = trace1 · 0.99 + x and
  t2 = trace2 · 0.99 + x1; and the two rank-one updates dw1 = t1ᵀ s, dw2 = t2ᵀ s.
  The kernel's first call blocks the two matrix-vector products over a 4 x 8 grid, summing the eight contracted blocks
  of each 2048-lane stripe in a scratch accumulator (cleared at the first block, thresholded at the last); the host
  forms the traces and reshapes them into columns; the second call writes the two outer products block by block over an
  8 x 4 grid as broadcast products. The reference does the same with two whole matrix products, a transpose and a matrix
  product over a contracted axis of extent one.

  WHY THEY AGREE over the extended reals. A change of float format is the identity there, and a matrix product into a
  zero accumulator is the plain sum over the contracted axis; so each lane of the accumulator is a sum of 8192 + 8192
  products regrouped into eight blocks of (1024 + 1024), equal to the reference's two whole sums by commutativity and
  associativity of addition alone. The thresholds are the same word, compared the same way; a 0/1 comparison widened
  and read as a signed integer is the same number as read unsigned. A sum over one index is its one term, and a row
  reshaped into a column is its transpose. The traces are the same host operations on both sides. No finiteness of the
  inputs is used: the precondition is never opened.

  THE FRAMES. Each of the kernel's two programs (the word-level one and its reading over the extended reals: the same
  text) is run as the pipeline library's list of segments, call, host stretch, call; the first call's invariant carries
  the accumulator's contents from point to point (Proof/KI/R0Body.lean), the second's is the plain one. The reference's
  frame is its generated run with the results dropped. The idealization rewrote no operation, so nothing is owed for it.
-/
import proofs.«178683_j27358941675618_1_alg».proof.Defs
import proofs.«178683_j27358941675618_1_alg».proof.Proof.Gen.Kernel
import proofs.«178683_j27358941675618_1_alg».proof.Proof.Gen.KernelIdeal
import proofs.«178683_j27358941675618_1_alg».proof.Proof.Gen.ReferenceIdeal
import proofs.«178683_j27358941675618_1_alg».proof.Proof.Gen.Pre_finite_inputs
import proofs.«178683_j27358941675618_1_alg».proof.Proof.Gen.ReferenceIdeal.Run
import proofs.«178683_j27358941675618_1_alg».proof.Proof.Gen.ReferenceIdeal.Read
import proofs.«178683_j27358941675618_1_alg».proof.Proof.K.Run
import proofs.«178683_j27358941675618_1_alg».proof.Proof.KI.Run
import proofs.«178683_j27358941675618_1_alg».proof.Proof.KI.ValueRun
import Idealize.ShloMosaic.Adequacy
import Idealize.ShloMosaic.Init

noncomputable section

namespace Cert.Proof

open Idealize.ShloMosaic Idealize.ShloMosaic.TcCoe Idealize.SL.Sem

/-- The word-level program runs to its end and leaves its seven arguments as launched. -/
theorem frame_k : Cert.frame_Kernel := fun m ρ _ => Cert.Kernel.Hand.frame (F := Bits) m ρ

/-- So does its reading over the extended reals. -/
theorem frame_ki : Cert.frame_KernelIdeal := fun m ρ _ => Cert.KernelIdeal.Hand.frame (F := Ideal) m ρ

/-- The reference's frame: its run, the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Over the extended reals, from memories agreeing on the arguments, both programs end with the spike row and the two
    update matrices at the reference's own expressions of the arguments. -/
theorem algebraic : Cert.algebraic_KernelIdeal_ReferenceIdeal := by
  intro m ρ m' ρ' _ hagree
  refine ⟨fun c => Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.ReferenceIdeal.Read.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_values m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v6_eq, (hagree c).1, (hagree c).2.1, (hagree c).2.2.1, (hagree c).2.2.2.2.2.1, (hagree c).2.2.2.2.2.2]
  · rw [(h c).2.1, Cert.ReferenceIdeal.Read.val_main_v14_eq, (hagree c).1, (hagree c).2.1, (hagree c).2.2.1, (hagree c).2.2.2.1, (hagree c).2.2.2.2.2.1, (hagree c).2.2.2.2.2.2]
  · rw [(h c).2.2.1, Cert.ReferenceIdeal.Read.val_main_v16_eq, (hagree c).1, (hagree c).2.1, (hagree c).2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
